-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x32x1920 : Shape := ⟨3, ![256, 32, 1920]⟩
abbrev S256x32x1080 : Shape := ⟨3, ![256, 32, 1080]⟩
abbrev S256x32x2 : Shape := ⟨3, ![256, 32, 2]⟩
abbrev S_ : Shape := ⟨0, ![]⟩

class Facts : Prop where
  bcast_S_S256x32x1920 : S_.BroadcastsInDim S256x32x1920 (![] : Fin 0 → Fin S256x32x1920.rank)
  reducesTo_S256x32x1920_S_d0_1_2 : S256x32x1920.ReducesTo [0, 1, 2] S_
  h_S_ : 0 < S_.numel
  bcast_S_S256x32x1080 : S_.BroadcastsInDim S256x32x1080 (![] : Fin 0 → Fin S256x32x1080.rank)
  reducesTo_S256x32x1080_S_d0_1_2 : S256x32x1080.ReducesTo [0, 1, 2] S_

variable [Facts]

def fn {F : FTy → Type} [FloatOps F] (main_arg0 : FVec F S256x32x1920 .f32) (main_arg1 : FVec F S256x32x1080 .f32) (main_arg2 : IVec S256x32x2 32) : IVec S_ 1 :=
  let main_v0 : FVec F S256x32x1920 .f32 := Host.absf main_arg0
  let main_cst : FVec F S_ .f32 := constant S_ .f32 0x7F800000#32
  let main_v1 : FVec F S256x32x1920 .f32 := broadcastInDim S256x32x1920 ![] bcast_S_S256x32x1920 main_cst
  let main_v2 : IVec S256x32x1920 1 := cmpf .olt main_v0 main_v1
  let main_c : IVec S_ 1 := constantI S_ 1 1#1
  let main_v3 : IVec S_ 1 := (fun x v => Host.reduce IntOp.andi x v reducesTo_S256x32x1920_S_d0_1_2 h_S_) main_v2 main_c
  let main_v4 : FVec F S256x32x1080 .f32 := Host.absf main_arg1
  let main_cst_0 : FVec F S_ .f32 := constant S_ .f32 0x7F800000#32
  let main_v5 : FVec F S256x32x1080 .f32 := broadcastInDim S256x32x1080 ![] bcast_S_S256x32x1080 main_cst_0
  let main_v6 : IVec S256x32x1080 1 := cmpf .olt main_v4 main_v5
  let main_c_1 : IVec S_ 1 := constantI S_ 1 1#1
  let main_v7 : IVec S_ 1 := (fun x v => Host.reduce IntOp.andi x v reducesTo_S256x32x1080_S_d0_1_2 h_S_) main_v6 main_c_1
  let main_v8 : IVec S_ 1 := andi main_v3 main_v7
  main_v8
-- ==== Kernel.lean ====
abbrev S256x32x1920 : Shape := ⟨3, ![256, 32, 1920]⟩
abbrev S256x32x1080 : Shape := ⟨3, ![256, 32, 1080]⟩
abbrev S256x32x2 : Shape := ⟨3, ![256, 32, 2]⟩
abbrev S8192x1920 : Shape := ⟨2, ![8192, 1920]⟩
abbrev S8192x1080 : Shape := ⟨2, ![8192, 1080]⟩
abbrev S256x32x1 : Shape := ⟨3, ![256, 32, 1]⟩
abbrev S256x32 : Shape := ⟨2, ![256, 32]⟩
abbrev S_ : Shape := ⟨0, ![]⟩
abbrev S8192x1 : Shape := ⟨2, ![8192, 1]⟩
abbrev S1x2048 : Shape := ⟨2, ![1, 2048]⟩
abbrev S512x1920 : Shape := ⟨2, ![512, 1920]⟩
abbrev S512x1080 : Shape := ⟨2, ![512, 1080]⟩
abbrev S512x1 : Shape := ⟨2, ![512, 1]⟩
abbrev S1x128 : Shape := ⟨2, ![1, 128]⟩
abbrev S512 : Shape := ⟨1, ![512]⟩
abbrev S1 : Shape := ⟨1, ![1]⟩
abbrev S1x1 : Shape := ⟨2, ![1, 1]⟩

abbrev nBuf : Space → Nat
  | .hbm => 51
  | .vmem => 16
  | .smem => 0
  | _ => 0

abbrev bufTy : (tb : Table) → Fin (tcTables nBuf tb) → BufTy
  | .hbm, ⟨0, _⟩ => ⟨S256x32x1920, .f32⟩
  | .hbm, ⟨1, _⟩ => ⟨S256x32x1080, .f32⟩
  | .hbm, ⟨2, _⟩ => ⟨S256x32x2, .i32⟩
  | .hbm, ⟨3, _⟩ => ⟨S8192x1920, .f32⟩
  | .hbm, ⟨4, _⟩ => ⟨S8192x1080, .f32⟩
  | .hbm, ⟨5, _⟩ => ⟨S256x32x1, .i32⟩
  | .hbm, ⟨6, _⟩ => ⟨S256x32, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S256x32, .i32⟩
  | .hbm, ⟨11, _⟩ => ⟨S256x32, .i32⟩
  | .hbm, ⟨12, _⟩ => ⟨S_, .i32⟩
  | .hbm, ⟨13, _⟩ => ⟨S256x32, .i32⟩
  | .hbm, ⟨14, _⟩ => ⟨S256x32, .i32⟩
  | .hbm, ⟨15, _⟩ => ⟨S256x32x1, .i32⟩
  | .hbm, ⟨16, _⟩ => ⟨S256x32, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S256x32, .i32⟩
  | .hbm, ⟨21, _⟩ => ⟨S256x32, .i32⟩
  | .hbm, ⟨22, _⟩ => ⟨S_, .i32⟩
  | .hbm, ⟨23, _⟩ => ⟨S256x32, .i32⟩
  | .hbm, ⟨24, _⟩ => ⟨S256x32, .i32⟩
  | .hbm, ⟨25, _⟩ => ⟨S_, .i32⟩
  | .hbm, ⟨26, _⟩ => ⟨S256x32, .i32⟩
  | .hbm, ⟨27, _⟩ => ⟨S256x32, .i1⟩
  | .hbm, ⟨28, _⟩ => ⟨S_, .i32⟩
  | .hbm, ⟨29, _⟩ => ⟨S256x32, .i32⟩
  | .hbm, ⟨30, _⟩ => ⟨S256x32, .i1⟩
  | .hbm, ⟨31, _⟩ => ⟨S256x32, .i1⟩
  | .hbm, ⟨32, _⟩ => ⟨S256x32, .i1⟩
  | .hbm, ⟨33, _⟩ => ⟨S256x32, .f32⟩
  | .hbm, ⟨34, _⟩ => ⟨S8192x1, .i32⟩
  | .hbm, ⟨35, _⟩ => ⟨S8192x1, .i32⟩
  | .hbm, ⟨36, _⟩ => ⟨S8192x1, .f32⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S512x1920, .f32⟩
  | .local _ .vmem, ⟨1, _⟩ => ⟨S512x1920, .f32⟩
  | .local _ .vmem, ⟨2, _⟩ => ⟨S512x1080, .f32⟩
  | .local _ .vmem, ⟨3, _⟩ => ⟨S512x1080, .f32⟩
  | .local _ .vmem, ⟨4, _⟩ => ⟨S512x1, .i32⟩
  | .local _ .vmem, ⟨5, _⟩ => ⟨S512x1, .i32⟩
  | .local _ .vmem, ⟨6, _⟩ => ⟨S512x1, .i32⟩
  | .local _ .vmem, ⟨7, _⟩ => ⟨S512x1, .i32⟩
  | .local _ .vmem, ⟨8, _⟩ => ⟨S512x1, .f32⟩
  | .local _ .vmem, ⟨9, _⟩ => ⟨S512x1, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | _, _ => ⟨S256x32x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v7 : Ref sig .tc := ⟨.hbm, 24, rfl⟩
abbrev main_c_3 : Ref sig .tc := ⟨.hbm, 25, rfl⟩
abbrev main_v8 : Ref sig .tc := ⟨.hbm, 26, rfl⟩
abbrev main_v9 : Ref sig .tc := ⟨.hbm, 27, rfl⟩
abbrev main_c_4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v18_2 : Ref sig .tc := ⟨.hbm, 39, rfl⟩
abbrev main_cst : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_cst_6 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1080 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256x32x1920_S8192x1920 : S256x32x1920.ShapeCasts S8192x1920
  shapeCasts_S256x32x1080_S8192x1080 : S256x32x1080.ShapeCasts S8192x1080
  slices_S256x32x2_S256x32x1_0_0_0 : S256x32x2.Slices ![0, 0, 0] S256x32x1
  shapeCasts_S256x32x1_S256x32 : S256x32x1.ShapeCasts S256x32
  bcast_S_S256x32 : S_.BroadcastsInDim S256x32 (![] : Fin 0 → Fin S256x32.rank)
  slices_S256x32x2_S256x32x1_0_0_1 : S256x32x2.Slices ![0, 0, 1] S256x32x1
  shapeCasts_S256x32_S8192x1 : S256x32.ShapeCasts S8192x1
  inb_S512x1920_S512x1920_0_0 : ∀ a, (![0, 0] : Fin 2 → Nat) a + S512x1920.size a ≤ S512x1920.size a
  h_S512x1920 : 0 < S512x1920.numel
  shapeCasts_S512x1920_S512x1920 : S512x1920.ShapeCasts S512x1920
  inb_S512x1080_S512x1080_0_0 : ∀ a, (![0, 0] : Fin 2 → Nat) a + S512x1080.size a ≤ S512x1080.size a
  h_S512x1080 : 0 < S512x1080.numel
  shapeCasts_S512x1080_S512x1080 : S512x1080.ShapeCasts S512x1080
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1920_d1_w32 : S512x1920.Iotas .tc 32 [1]
  broadcasts_S512x1_S512x1920 : S512x1.Broadcasts S512x1920
  reduces_S512x1920_S512 : S512x1920.Reduces [1] S512
  shapeCasts_S512_S512x1 : S512.ShapeCasts S512x1
  iota_S512x1080_d1_w32 : S512x1080.Iotas .tc 32 [1]
  broadcasts_S512x1_S512x1080 : S512x1.Broadcasts S512x1080
  reduces_S512x1080_S512 : S512x1080.Reduces [1] S512
  reduces_S512x1_S1 : S512x1.Reduces [0] S1
  shapeCasts_S1_S1x1 : S1.ShapeCasts S1x1
  iota_S1x128_d1_w32 : S1x128.Iotas .tc 32 [1]
  shapeCasts_S1x1_S1x1 : S1x1.ShapeCasts S1x1
  broadcasts_S1x1_S1x128 : S1x1.Broadcasts S1x128
  inb_S1x128_S1x128_0_0 : ∀ a, (![0, 0] : Fin 2 → Nat) a + S1x128.size a ≤ S1x128.size a
  h_S1x128 : 0 < S1x128.numel
  reducesTo_S1x2048_S_d0_1 : S1x2048.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1920.size a ≤ S8192x1920.size a
  hwx0_0 : ∀ i : grid0.Coords, EltTy.bits .f32 = 32 ∨ (Rect.block (s := S8192x1920) S512x1920.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1080.size a ≤ S8192x1080.size a
  hwx0_1 : ∀ i : grid0.Coords, EltTy.bits .f32 = 32 ∨ (Rect.block (s := S8192x1080) S512x1080.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .i32 = 32 ∨ (Rect.block (s := S8192x1) S512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x2048.size a
  hwx0_5 : ∀ i : grid0.Coords, EltTy.bits .f32 = 32 ∨ (Rect.block (s := S1x2048) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x2048.size a
  hwx0_6 : ∀ i : grid0.Coords, EltTy.bits .f32 = 32 ∨ (Rect.block (s := S1x2048) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x2048.size a
  hwx0_7 : ∀ i : grid0.Coords, EltTy.bits .f32 = 32 ∨ (Rect.block (s := S1x2048) S1x128.size (cc0_transform_7 i) (hinb0_7 i)).WholeWords (EltTy.packing .f32)

variable [Facts₀]

abbrev win0_0 : Pipeline.Window sig grid0 :=
  Pipeline.Window.ofSpec (Memref.whole main_v0) S512x1920.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1080.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_0) S1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18_1) S1x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_2) S1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x32x1920 : Shape := ⟨3, ![256, 32, 1920]⟩
abbrev S256x32x1080 : Shape := ⟨3, ![256, 32, 1080]⟩
abbrev S256x32x2 : Shape := ⟨3, ![256, 32, 2]⟩
abbrev S256x32x1 : Shape := ⟨3, ![256, 32, 1]⟩
abbrev S256x32 : Shape := ⟨2, ![256, 32]⟩
abbrev S_ : Shape := ⟨0, ![]⟩
abbrev S256x32x1x1 : Shape := ⟨4, ![256, 32, 1, 1]⟩
abbrev S1 : Shape := ⟨1, ![1]⟩
abbrev S1x1x1x1 : Shape := ⟨4, ![1, 1, 1, 1]⟩

abbrev nBuf : Space → Nat
  | .hbm => 173
  | .vmem => 0
  | .smem => 0
  | _ => 0

abbrev hbmTy0_0 (i : Nat) : BufTy := match i % 128 with
  | 0 => ⟨S256x32x1920, .f32⟩
  | 1 => ⟨S256x32x1080, .f32⟩
  | 2 => ⟨S256x32x2, .i32⟩
  | 3 => ⟨S256x32x1, .i32⟩
  | 4 => ⟨S256x32, .i32⟩
  | 5 => ⟨S_, .i32⟩
  | 6 => ⟨S_, .i32⟩
  | 7 => ⟨S_, .i32⟩
  | 8 => ⟨S256x32, .i32⟩
  | 9 => ⟨S256x32, .i32⟩
  | 10 => ⟨S_, .i32⟩
  | 11 => ⟨S256x32, .i32⟩
  | 12 => ⟨S256x32, .i32⟩
  | 13 => ⟨S256x32x1, .i32⟩
  | 14 => ⟨S256x32, .i32⟩
  | 15 => ⟨S_, .i32⟩
  | 16 => ⟨S_, .i32⟩
  | 17 => ⟨S_, .i32⟩
  | 18 => ⟨S256x32, .i32⟩
  | 19 => ⟨S256x32, .i32⟩
  | 20 => ⟨S_, .i32⟩
  | 21 => ⟨S256x32, .i32⟩
  | 22 => ⟨S256x32, .i32⟩
  | 23 => ⟨S_, .i32⟩
  | 24 => ⟨S256x32, .i32⟩
  | 25 => ⟨S256x32, .i1⟩
  | 26 => ⟨S_, .i32⟩
  | 27 => ⟨S256x32, .i32⟩
  | 28 => ⟨S256x32, .i1⟩
  | 29 => ⟨S256x32, .i1⟩
  | 30 => ⟨S256x32, .i1⟩
  | 31 => ⟨S256x32, .f32⟩
  | 32 => ⟨S256x32x1920, .f32⟩
  | 33 => ⟨S_, .f32⟩
  | 34 => ⟨S256x32x1920, .f32⟩
  | 35 => ⟨S256x32x1920, .f32⟩
  | 36 => ⟨S256x32x1920, .f32⟩
  | 37 => ⟨S256x32x1920, .f32⟩
  | 38 => ⟨S_, .f32⟩
  | 39 => ⟨S256x32x1920, .f32⟩
  | 40 => ⟨S256x32x1920, .f32⟩
  | 41 => ⟨S256x32x1, .i32⟩
  | 42 => ⟨S_, .i32⟩
  | 43 => ⟨S256x32x1, .i32⟩
  | 44 => ⟨S256x32x1, .i1⟩
  | 45 => ⟨S_, .i32⟩
  | 46 => ⟨S256x32x1, .i32⟩
  | 47 => ⟨S256x32x1, .i32⟩
  | 48 => ⟨S256x32x1, .i32⟩
  | 49 => ⟨S256x32x1x1, .i32⟩
  | 50 => ⟨S1, .i32⟩
  | 51 => ⟨S_, .i32⟩
  | 52 => ⟨S256x32x1x1, .i32⟩
  | 53 => ⟨S256x32x1x1, .i1⟩
  | 54 => ⟨S1x1x1x1, .i32⟩
  | 55 => ⟨S256x32x1x1, .i32⟩
  | 56 => ⟨S256x32x1x1, .i1⟩
  | 57 => ⟨S256x32x1x1, .i1⟩
  | 58 => ⟨S_, .i1⟩
  | 59 => ⟨S256x32x1, .i1⟩
  | 60 => ⟨S256x32x1, .f32⟩
  | 61 => ⟨S_, .f32⟩
  | 62 => ⟨S256x32x1, .f32⟩
  | 63 => ⟨S256x32x1, .f32⟩
  | 64 => ⟨S256x32, .f32⟩
  | 65 => ⟨S_, .i32⟩
  | 66 => ⟨S256x32x1, .i32⟩
  | 67 => ⟨S256x32x1, .i1⟩
  | 68 => ⟨S_, .i32⟩
  | 69 => ⟨S256x32x1, .i32⟩
  | 70 => ⟨S256x32x1, .i32⟩
  | 71 => ⟨S256x32x1, .i32⟩
  | 72 => ⟨S256x32x1x1, .i32⟩
  | 73 => ⟨S1, .i32⟩
  | 74 => ⟨S_, .i32⟩
  | 75 => ⟨S256x32x1x1, .i32⟩
  | 76 => ⟨S256x32x1x1, .i1⟩
  | 77 => ⟨S1x1x1x1, .i32⟩
  | 78 => ⟨S256x32x1x1, .i32⟩
  | 79 => ⟨S256x32x1x1, .i1⟩
  | 80 => ⟨S256x32x1x1, .i1⟩
  | 81 => ⟨S_, .i1⟩
  | 82 => ⟨S256x32x1, .i1⟩
  | 83 => ⟨S256x32x1, .f32⟩
  | 84 => ⟨S_, .f32⟩
  | 85 => ⟨S256x32x1, .f32⟩
  | 86 => ⟨S256x32x1, .f32⟩
  | 87 => ⟨S256x32, .f32⟩
  | 88 => ⟨S_, .f32⟩
  | 89 => ⟨S256x32, .f32⟩
  | 90 => ⟨S256x32, .f32⟩
  | 91 => ⟨S256x32, .f32⟩
  | 92 => ⟨S256x32, .f32⟩
  | 93 => ⟨S_, .f32⟩
  | 94 => ⟨S256x32, .f32⟩
  | 95 => ⟨S256x32, .f32⟩
  | 96 => ⟨S256x32x1080, .f32⟩
  | 97 => ⟨S_, .f32⟩
  | 98 => ⟨S256x32x1080, .f32⟩
  | 99 => ⟨S256x32x1080, .f32⟩
  | 100 => ⟨S256x32x1080, .f32⟩
  | 101 => ⟨S256x32x1080, .f32⟩
  | 102 => ⟨S_, .f32⟩
  | 103 => ⟨S256x32x1080, .f32⟩
  | 104 => ⟨S256x32x1080, .f32⟩
  | 105 => ⟨S256x32x1, .i32⟩
  | 106 => ⟨S_, .i32⟩
  | 107 => ⟨S256x32x1, .i32⟩
  | 108 => ⟨S256x32x1, .i1⟩
  | 109 => ⟨S_, .i32⟩
  | 110 => ⟨S256x32x1, .i32⟩
  | 111 => ⟨S256x32x1, .i32⟩
  | 112 => ⟨S256x32x1, .i32⟩
  | 113 => ⟨S256x32x1x1, .i32⟩
  | 114 => ⟨S1, .i32⟩
  | 115 => ⟨S_, .i32⟩
  | 116 => ⟨S256x32x1x1, .i32⟩
  | 117 => ⟨S256x32x1x1, .i1⟩
  | 118 => ⟨S1x1x1x1, .i32⟩
  | 119 => ⟨S256x32x1x1, .i32⟩
  | 120 => ⟨S256x32x1x1, .i1⟩
  | 121 => ⟨S256x32x1x1, .i1⟩
  | 122 => ⟨S_, .i1⟩
  | 123 => ⟨S256x32x1, .i1⟩
  | 124 => ⟨S256x32x1, .f32⟩
  | 125 => ⟨S_, .f32⟩
  | 126 => ⟨S256x32x1, .f32⟩
  | 127 => ⟨S256x32x1, .f32⟩
  | _ => ⟨S256x32x1920, .f32⟩

abbrev hbmTy0_1 (i : Nat) : BufTy := match i % 128 with
  | 0 => ⟨S256x32, .f32⟩
  | 1 => ⟨S_, .i32⟩
  | 2 => ⟨S256x32x1, .i32⟩
  | 3 => ⟨S256x32x1, .i1⟩
  | 4 => ⟨S_, .i32⟩
  | 5 => ⟨S256x32x1, .i32⟩
  | 6 => ⟨S256x32x1, .i32⟩
  | 7 => ⟨S256x32x1, .i32⟩
  | 8 => ⟨S256x32x1x1, .i32⟩
  | 9 => ⟨S1, .i32⟩
  | 10 => ⟨S_, .i32⟩
  | 11 => ⟨S256x32x1x1, .i32⟩
  | 12 => ⟨S256x32x1x1, .i1⟩
  | 13 => ⟨S1x1x1x1, .i32⟩
  | 14 => ⟨S256x32x1x1, .i32⟩
  | 15 => ⟨S256x32x1x1, .i1⟩
  | 16 => ⟨S256x32x1x1, .i1⟩
  | 17 => ⟨S_, .i1⟩
  | 18 => ⟨S256x32x1, .i1⟩
  | 19 => ⟨S256x32x1, .f32⟩
  | 20 => ⟨S_, .f32⟩
  | 21 => ⟨S256x32x1, .f32⟩
  | 22 => ⟨S256x32x1, .f32⟩
  | 23 => ⟨S256x32, .f32⟩
  | 24 => ⟨S_, .f32⟩
  | 25 => ⟨S256x32, .f32⟩
  | 26 => ⟨S256x32, .f32⟩
  | 27 => ⟨S256x32, .f32⟩
  | 28 => ⟨S256x32, .f32⟩
  | 29 => ⟨S_, .f32⟩
  | 30 => ⟨S256x32, .f32⟩
  | 31 => ⟨S256x32, .f32⟩
  | 32 => ⟨S_, .f32⟩
  | 33 => ⟨S_, .f32⟩
  | 34 => ⟨S256x32, .f32⟩
  | 35 => ⟨S_, .f32⟩
  | 36 => ⟨S_, .f32⟩
  | 37 => ⟨S256x32, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | _ => ⟨S256x32x1920, .f32⟩

abbrev hbmTy (i : Nat) : BufTy := match i / 128 with
  | 0 => hbmTy0_0 i
  | 1 => hbmTy0_1 i
  | _ => ⟨S256x32x1920, .f32⟩

abbrev bufTy : (tb : Table) → Fin (tcTables nBuf tb) → BufTy
  | .hbm, ⟨i, _⟩ => hbmTy i
  | _, _ => ⟨S256x32x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v5 : Ref sig .tc := ⟨.hbm, 22, rfl⟩
abbrev main_c_3 : Ref sig .tc := ⟨.hbm, 23, rfl⟩
abbrev main_v6 : Ref sig .tc := ⟨.hbm, 24, rfl⟩
abbrev main_v7 : Ref sig .tc := ⟨.hbm, 25, rfl⟩
abbrev main_c_4 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_cst : Ref sig .tc := ⟨.hbm, 61, rfl⟩
abbrev main_call2_v14 : Ref sig .tc := ⟨.hbm, 62, rfl⟩
abbrev main_v21 : Ref sig .tc := ⟨.hbm, 63, rfl⟩
abbrev main_v22 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_c_1 : Ref sig .tc := ⟨.hbm, 73, rfl⟩
abbrev main_call3_c_2 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_c_3 : Ref sig .tc := ⟨.hbm, 81, rfl⟩
abbrev main_call3_v12 : Ref sig .tc := ⟨.hbm, 82, rfl⟩
abbrev main_call3_v13 : Ref sig .tc := ⟨.hbm, 83, rfl⟩
abbrev main_call3_cst : Ref sig .tc := ⟨.hbm, 84, rfl⟩
abbrev main_call3_v14 : Ref sig .tc := ⟨.hbm, 85, rfl⟩
abbrev main_v23 : Ref sig .tc := ⟨.hbm, 86, rfl⟩
abbrev main_v24 : Ref sig .tc := ⟨.hbm, 87, rfl⟩
abbrev main_cst_6 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_cst_7 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_cst_8 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_cst_9 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_call4_c : Ref sig .tc := ⟨.hbm, 106, rfl⟩
abbrev main_call4_v0 : Ref sig .tc := ⟨.hbm, 107, rfl⟩
abbrev main_call4_v1 : Ref sig .tc := ⟨.hbm, 108, rfl⟩
abbrev main_call4_c_0 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_v5 : Ref sig .tc := ⟨.hbm, 113, rfl⟩
abbrev main_call4_c_1 : Ref sig .tc := ⟨.hbm, 114, rfl⟩
abbrev main_call4_c_2 : Ref sig .tc := ⟨.hbm, 115, rfl⟩
abbrev main_call4_v6 : Ref sig .tc := ⟨.hbm, 116, rfl⟩
abbrev main_call4_v7 : Ref sig .tc := ⟨.hbm, 117, rfl⟩
abbrev main_call4_v8 : Ref sig .tc := ⟨.hbm, 118, rfl⟩
abbrev main_call4_v9 : Ref sig .tc := ⟨.hbm, 119, rfl⟩
abbrev main_call4_v10 : Ref sig .tc := ⟨.hbm, 120, rfl⟩
abbrev main_call4_v11 : Ref sig .tc := ⟨.hbm, 121, rfl⟩
abbrev main_call4_c_3 : Ref sig .tc := ⟨.hbm, 122, rfl⟩
abbrev main_call4_v12 : Ref sig .tc := ⟨.hbm, 123, rfl⟩
abbrev main_call4_v13 : Ref sig .tc := ⟨.hbm, 124, rfl⟩
abbrev main_call4_cst : Ref sig .tc := ⟨.hbm, 125, rfl⟩
abbrev main_call4_v14 : Ref sig .tc := ⟨.hbm, 126, rfl⟩
abbrev main_v39 : Ref sig .tc := ⟨.hbm, 127, rfl⟩
abbrev main_v40 : Ref sig .tc := ⟨.hbm, 128, rfl⟩
abbrev main_call5_c : Ref sig .tc := ⟨.hbm, 129, rfl⟩
abbrev main_call5_v0 : Ref sig .tc := ⟨.hbm, 130, rfl⟩
abbrev main_call5_v1 : Ref sig .tc := ⟨.hbm, 131, rfl⟩
abbrev main_call5_c_0 : Ref sig .tc := ⟨.hbm, 132, rfl⟩
abbrev main_call5_v2 : Ref sig .tc := ⟨.hbm, 133, rfl⟩
abbrev main_call5_v3 : Ref sig .tc := ⟨.hbm, 134, rfl⟩
abbrev main_call5_v4 : Ref sig .tc := ⟨.hbm, 135, rfl⟩
abbrev main_call5_v5 : Ref sig .tc := ⟨.hbm, 136, rfl⟩
abbrev main_call5_c_1 : Ref sig .tc := ⟨.hbm, 137, rfl⟩
abbrev main_call5_c_2 : Ref sig .tc := ⟨.hbm, 138, rfl⟩
abbrev main_call5_v6 : Ref sig .tc := ⟨.hbm, 139, rfl⟩
abbrev main_call5_v7 : Ref sig .tc := ⟨.hbm, 140, rfl⟩
abbrev main_call5_v8 : Ref sig .tc := ⟨.hbm, 141, rfl⟩
abbrev main_call5_v9 : Ref sig .tc := ⟨.hbm, 142, rfl⟩
abbrev main_call5_v10 : Ref sig .tc := ⟨.hbm, 143, rfl⟩
abbrev main_call5_v11 : Ref sig .tc := ⟨.hbm, 144, rfl⟩
abbrev main_call5_c_3 : Ref sig .tc := ⟨.hbm, 145, rfl⟩
abbrev main_call5_v12 : Ref sig .tc := ⟨.hbm, 146, rfl⟩
abbrev main_call5_v13 : Ref sig .tc := ⟨.hbm, 147, rfl⟩
abbrev main_call5_cst : Ref sig .tc := ⟨.hbm, 148, rfl⟩
abbrev main_call5_v14 : Ref sig .tc := ⟨.hbm, 149, rfl⟩
abbrev main_v41 : Ref sig .tc := ⟨.hbm, 150, rfl⟩
abbrev main_v42 : Ref sig .tc := ⟨.hbm, 151, rfl⟩
abbrev main_cst_10 : Ref sig .tc := ⟨.hbm, 152, rfl⟩
abbrev main_v43 : Ref sig .tc := ⟨.hbm, 153, rfl⟩
abbrev main_v44 : Ref sig .tc := ⟨.hbm, 154, rfl⟩
abbrev main_v45 : Ref sig .tc := ⟨.hbm, 155, rfl⟩
abbrev main_v46 : Ref sig .tc := ⟨.hbm, 156, rfl⟩
abbrev main_cst_11 : Ref sig .tc := ⟨.hbm, 157, rfl⟩
abbrev main_v47 : Ref sig .tc := ⟨.hbm, 158, rfl⟩
abbrev main_v48 : Ref sig .tc := ⟨.hbm, 159, rfl⟩
abbrev main_cst_12 : Ref sig .tc := ⟨.hbm, 160, rfl⟩
abbrev main_v49 : Ref sig .tc := ⟨.hbm, 161, rfl⟩
abbrev main_v50 : Ref sig .tc := ⟨.hbm, 162, rfl⟩
abbrev main_cst_13 : Ref sig .tc := ⟨.hbm, 163, rfl⟩
abbrev main_v51 : Ref sig .tc := ⟨.hbm, 164, rfl⟩
abbrev main_v52 : Ref sig .tc := ⟨.hbm, 165, rfl⟩
abbrev main_cst_14 : Ref sig .tc := ⟨.hbm, 166, rfl⟩
abbrev main_v53 : Ref sig .tc := ⟨.hbm, 167, rfl⟩
abbrev main_cst_15 : Ref sig .tc := ⟨.hbm, 168, rfl⟩
abbrev main_v54 : Ref sig .tc := ⟨.hbm, 169, rfl⟩
abbrev main_v55 : Ref sig .tc := ⟨.hbm, 170, rfl⟩
abbrev main_v56 : Ref sig .tc := ⟨.hbm, 171, rfl⟩
abbrev main_v57 : Ref sig .tc := ⟨.hbm, 172, rfl⟩

abbrev nD : Nat := 1
abbrev τ : Topo := Topo.v7x

variable {F : FTy → Type} [FloatOps F]

class Facts₀ : Prop where
  slices_S256x32x2_S256x32x1_0_0_0 : S256x32x2.Slices ![0, 0, 0] S256x32x1
  shapeCasts_S256x32x1_S256x32 : S256x32x1.ShapeCasts S256x32
  bcast_S_S256x32 : S_.BroadcastsInDim S256x32 (![] : Fin 0 → Fin S256x32.rank)
  slices_S256x32x2_S256x32x1_0_0_1 : S256x32x2.Slices ![0, 0, 1] S256x32x1
  bcast_S_S256x32x1920 : S_.BroadcastsInDim S256x32x1920 (![] : Fin 0 → Fin S256x32x1920.rank)
  bcast_S256x32_S256x32x1_0_1 : S256x32.BroadcastsInDim S256x32x1 (![0, 1] : Fin 2 → Fin S256x32x1.rank)
  bcast_S_S256x32x1 : S_.BroadcastsInDim S256x32x1 (![] : Fin 0 → Fin S256x32x1.rank)
  shapeCasts_S256x32x1_S256x32x1x1 : S256x32x1.ShapeCasts S256x32x1x1
  bcast_S_S256x32x1x1 : S_.BroadcastsInDim S256x32x1x1 (![] : Fin 0 → Fin S256x32x1x1.rank)
  bcast_S1_S1x1x1x1_3 : S1.BroadcastsInDim S1x1x1x1 (![3] : Fin 1 → Fin S1x1x1x1.rank)
  bcast_S1x1x1x1_S256x32x1x1_0_1_2_3 : S1x1x1x1.BroadcastsInDim S256x32x1x1 (![0, 1, 2, 3] : Fin 4 → Fin S256x32x1x1.rank)
  reducesTo_S256x32x1x1_S256x32x1_d3 : S256x32x1x1.ReducesTo [3] S256x32x1
  h_S_ : 0 < S_.numel
  reducesTo_S256x32x1920_S256x32_d2 : S256x32x1920.ReducesTo [2] S256x32
  bcast_S_S256x32x1080 : S_.BroadcastsInDim S256x32x1080 (![] : Fin 0 → Fin S256x32x1080.rank)
  reducesTo_S256x32x1080_S256x32_d2 : S256x32x1080.ReducesTo [2] S256x32
  reducesTo_S256x32_S_d0_1 : S256x32.ReducesTo [0, 1] S_
  gather_S256x32x1920_S256x32x1x1_S256x32x1_n_2_01_01_2_3_111_wf : GatherDims.WF S256x32x1920 S256x32x1x1 S256x32x1 [] [2] [0, 1] [2] [0, 1] 3 ![1, 1, 1]
  gather_S256x32x1080_S256x32x1x1_S256x32x1_n_2_01_01_2_3_111_wf : GatherDims.WF S256x32x1080 S256x32x1x1 S256x32x1 [] [2] [0, 1] [2] [0, 1] 3 ![1, 1, 1]

variable [Facts₀]

def gather_S256x32x1920_S256x32x1x1_S256x32x1_n_2_01_01_2_3_111 : GatherDims S256x32x1920 S256x32x1x1 S256x32x1 where
  offsetDims := []
  collapsedSliceDims := [2]
  operandBatchingDims := [0, 1]
  startIndicesBatchingDims := [0, 1]
  startIndexMap := [2]
  indexVectorDim := 3
  sliceSizes := ![1, 1, 1]
  wf := gather_S256x32x1920_S256x32x1x1_S256x32x1_n_2_01_01_2_3_111_wf
def gather_S256x32x1080_S256x32x1x1_S256x32x1_n_2_01_01_2_3_111 : GatherDims S256x32x1080 S256x32x1x1 S256x32x1 where
  offsetDims := []
  collapsedSliceDims := [2]
  operandBatchingDims := [0, 1]
  startIndicesBatchingDims := [0, 1]
  startIndexMap := [2]
  indexVectorDim := 3
  sliceSizes := ![1, 1, 1]
  wf := gather_S256x32x1080_S256x32x1x1_S256x32x1_n_2_01_01_2_3_111_wf

class Facts : Prop extends Facts₀ where

variable [Facts]
-- ==== Proof.Spec.lean ====
/-
  The mathematics both programs compute, stated once over the three argument arrays and over no program.

  For every pair (b, n) there is a row px[b, n, ·] of 1920 probabilities, a row py[b, n, ·] of 1080, and two target
  words. Each target word is clamped into its row's index range; the row's loss is the mean binary cross entropy
  against the one-hot vector at the clamped target, in its closed form

      ( -lg p[t]  -  ( Σ_k lg1 p[k]  -  lg1 p[t] ) ) / L ,     lg x = max (log x) (-100),   lg1 x = max (log (1 - x)) (-100),

  and a pair counts (mask 1) unless both clamped targets are 0. The result is the masked sum of the x-losses over the
  masked count (at least 1) plus the same for the y-losses.
-/
import Idealize.ShloMosaic.PureOps.Ideal
import Idealize.ShloMosaic.Lib.ValueIdx

noncomputable section

open scoped BigOperators

namespace Cert.Spec

open Idealize.ShloMosaic Idealize.ShloMosaic.ValueIdx

/-- The three argument arrays at the ideal instance. -/
abbrev ArrX := (⟨3, ![256, 32, 1920]⟩ : Shape).Idx → EReal
abbrev ArrY := (⟨3, ![256, 32, 1080]⟩ : Shape).Idx → EReal
abbrev ArrT := (⟨3, ![256, 32, 2]⟩ : Shape).Idx → BitVec 32

/-- The clamp floor of the logarithms, -100. -/
def cLow : EReal := Ideal.ofBits .f32 0xC2C80000#32

/-- A target word clamped into [0, hi] (signed). -/
def clampW (hi w : BitVec 32) : BitVec 32 := IntOp.minsi hi (IntOp.maxsi 0#32 w)

/-- The entry of a row of length L a word names: the word read signed and clamped into the row. -/
def tIdx (L : ℕ) (hL : 0 < L) (t : BitVec 32) : Fin L := ⟨min t.toInt.toNat (L - 1), by omega⟩

/-- The clamped logarithm of a probability, and of its complement. -/
def lg (x : EReal) : EReal := max (Ideal.log x) cLow
def lg1 (x : EReal) : EReal := max (Ideal.log1p (-x)) cLow

/-- One row's loss from the row p, its entry pt at the target, and the row length D as an extended real. -/
def rowLoss (D : EReal) {L : ℕ} (p : Fin L → EReal) (pt : EReal) : EReal :=
  Ideal.div ((-(lg pt)) - ((0 + ∑ k : Fin L, lg1 (p k)) - lg1 pt)) D

/-- The mask of a pair from its two clamped targets: 0 when both are 0, else 1. -/
def maskW (tx ty : BitVec 32) : EReal :=
  FloatOps.uitofp (F := Ideal) .f32 (~~~ (IntOp.andi (IntOp.cmpi .eq tx 0#32) (IntOp.cmpi .eq ty 0#32)))

/-- The clamped targets of pair (b, n). -/
def tX (x2 : ArrT) (b : Fin 256) (n : Fin 32) : BitVec 32 := clampW 1919#32 (x2 (ix3 b n (0 : Fin 2)))
def tY (x2 : ArrT) (b : Fin 256) (n : Fin 32) : BitVec 32 := clampW 1079#32 (x2 (ix3 b n (1 : Fin 2)))

/-- The mask of pair (b, n). -/
def mk (x2 : ArrT) (b : Fin 256) (n : Fin 32) : EReal := maskW (tX x2 b n) (tY x2 b n)

/-- The x-loss and the y-loss of pair (b, n). -/
def lX (x0 : ArrX) (x2 : ArrT) (b : Fin 256) (n : Fin 32) : EReal :=
  rowLoss (Ideal.ofBits .f32 0x44F00000#32) (fun k : Fin 1920 => x0 (ix3 b n k))
    (x0 (ix3 b n (tIdx 1920 (by decide) (tX x2 b n))))
def lY (x1 : ArrY) (x2 : ArrT) (b : Fin 256) (n : Fin 32) : EReal :=
  rowLoss (Ideal.ofBits .f32 0x44870000#32) (fun k : Fin 1080 => x1 (ix3 b n k))
    (x1 (ix3 b n (tIdx 1080 (by decide) (tY x2 b n))))

/-- The masked losses of pair (b, n). -/
def wX (x0 : ArrX) (x2 : ArrT) (b : Fin 256) (n : Fin 32) : EReal := lX x0 x2 b n * mk x2 b n
def wY (x1 : ArrY) (x2 : ArrT) (b : Fin 256) (n : Fin 32) : EReal := lY x1 x2 b n * mk x2 b n

/-- Pair number R of the 8192, in row-major order: b = R / 32, n = R % 32. -/
def pairB (R : Fin 8192) : Fin 256 := ⟨R.val / 32, by have := R.isLt; omega⟩
def pairN (R : Fin 8192) : Fin 32 := ⟨R.val % 32, by omega⟩

end Cert.Spec

end
-- ==== Proof.Sums.lean ====
/-
  Words and finite sums over the extended reals: the pure facts the value proofs rest on.

  A sum of a row against the one-hot mask of a word is the row's entry at that word; a signed clamp into [0, hi]
  lands in [0, hi] and reads the same signed and unsigned; a sum over 2048 lanes that holds one value per block of
  128 is the sum of the sixteen values; a double sum over sixteen tiles of 512 rows, and a sum over the 256 × 32
  pairs, are the sum over the 8192 rows in row-major order.
-/
import proofs.«408772_j8778913153573_3_alg».proof.Proof.Spec
import Idealize.ShloMosaic.Lib.ValueIdx
import Idealize.ShloMosaic.Lib.StableHlo.Predicate
import Mathlib.Algebra.BigOperators.Fin
import Mathlib.Logic.Equiv.Fin.Basic

noncomputable section

open scoped BigOperators

namespace Cert.Sums

open Idealize.ShloMosaic Idealize.ShloMosaic.ValueIdx

/-- A sum of a row against the one-hot mask "column number = t" is the row's entry at t: every other column
    contributes 0, and column t contributes its entry. -/
theorem onehot_sum {L : ℕ} (hL : L ≤ 2 ^ 31) (p : Fin L → EReal) (t : BitVec 32) (ht : t.toNat < L) :
    ∑ k : Fin L, Scalar.select (IntOp.cmpi .eq (BitVec.ofNat 32 k.val) t) (p k) (0 : EReal) = p ⟨t.toNat, ht⟩ := by
  rw [Finset.sum_eq_single (⟨t.toNat, ht⟩ : Fin L)]
  · have hself : BitVec.ofNat 32 t.toNat = t := by
      apply BitVec.eq_of_toNat_eq
      simp only [BitVec.toNat_ofNat]
      have := t.isLt
      omega
    have h : IntOp.cmpi .eq (BitVec.ofNat 32 t.toNat) t = 1#1 :=
      StableHlo.Predicate.cmpi_eq_iff.mpr hself
    show Scalar.select (IntOp.cmpi .eq (BitVec.ofNat 32 t.toNat) t) _ _ = _
    rw [h, select_one]
  · intro k _ hk
    have h : IntOp.cmpi .eq (BitVec.ofNat 32 k.val) t = 0#1 := by
      apply eq_zero_of_ne_one
      rw [StableHlo.Predicate.cmpi_eq_iff]
      intro he
      apply hk
      apply Fin.ext
      have h2 := congrArg BitVec.toNat he
      simp only [BitVec.toNat_ofNat] at h2
      have := k.isLt
      show k.val = t.toNat
      omega
    rw [h, select_zero]
  · intro h; exact absurd (Finset.mem_univ _) h

/-- The signed clamp of a word into [0, hi], for hi below 2³¹, is at most hi read unsigned. -/
theorem clampW_toNat_le (hi w : BitVec 32) (hhi : hi.toNat < 2 ^ 31) : (Cert.Spec.clampW hi w).toNat ≤ hi.toNat := by
  unfold Cert.Spec.clampW IntOp.minsi IntOp.maxsi
  simp only [BitVec.slt, decide_eq_true_eq]
  split_ifs with h1 h2 h3 <;>
    simp only [BitVec.toInt_eq_toNat_cond, BitVec.toNat_ofNat] at * <;> omega

/-- The signed clamp of a word into [0, hi], for hi below 2³¹, is non-negative: it reads the same signed and
    unsigned. -/
theorem clampW_toInt (hi w : BitVec 32) (hhi : hi.toNat < 2 ^ 31) :
    (Cert.Spec.clampW hi w).toInt = ((Cert.Spec.clampW hi w).toNat : ℤ) :=
  StableHlo.Predicate.toInt_eq_toNat_of_lt (by have := clampW_toNat_le hi w hhi; omega)

/-- A clamped word names the entry of its row at its own value: clamped into [0, L - 1], the row's index clamp
    does nothing more. -/
theorem tIdx_clampW (L : ℕ) (hL : 0 < L) (hL' : L ≤ 2 ^ 31) (hi w : BitVec 32) (hhi : hi.toNat = L - 1) :
    (Cert.Spec.tIdx L hL (Cert.Spec.clampW hi w)).val = (Cert.Spec.clampW hi w).toNat := by
  have hlt : hi.toNat < 2 ^ 31 := by omega
  have h1 := clampW_toNat_le hi w hlt
  have h2 := clampW_toInt hi w hlt
  show min (Cert.Spec.clampW hi w).toInt.toNat (L - 1) = _
  rw [h2, Int.toNat_natCast]
  omega

/-- A sum over m · n consecutive places is the double sum over m blocks of n places: place b of block a is
    number b + n · a. -/
theorem sum_fin_mul {M : Type*} [AddCommMonoid M] (m n : ℕ) (f : Fin (m * n) → M) :
    ∑ k : Fin (m * n), f k = ∑ a : Fin m, ∑ b : Fin n, f (finProdFinEquiv (a, b)) := by
  rw [← Equiv.sum_comp (finProdFinEquiv (m := m) (n := n)) f, Fintype.sum_prod_type]

/-- Sixteen blocks of 128 lanes, each holding its value in lane 0 and zeros elsewhere, sum to the sum of the
    sixteen values. -/
theorem lanes_sum (P : Fin 16 → EReal) :
    ∑ k : Fin 2048, (if k.val % 128 = 0 then P ⟨k.val / 128, by have := k.isLt; omega⟩ else (0 : EReal)) =
      ∑ t : Fin 16, P t := by
  have h := sum_fin_mul 16 128
    (fun k : Fin 2048 => if k.val % 128 = 0 then P ⟨k.val / 128, by have := k.isLt; omega⟩ else (0 : EReal))
  refine h.trans (Finset.sum_congr rfl fun a _ => ?_)
  rw [Finset.sum_eq_single (0 : Fin 128)]
  · have ha := a.isLt
    have hm : (finProdFinEquiv (a, (0 : Fin 128)) : Fin (16 * 128)).val % 128 = 0 := by
      simp only [finProdFinEquiv_apply_val]; show (0 + 128 * a.val) % 128 = 0; omega
    have hd : (finProdFinEquiv (a, (0 : Fin 128)) : Fin (16 * 128)).val / 128 = a.val := by
      simp only [finProdFinEquiv_apply_val]; show (0 + 128 * a.val) / 128 = a.val; omega
    show (if (finProdFinEquiv (a, (0 : Fin 128)) : Fin (16 * 128)).val % 128 = 0 then
        P ⟨(finProdFinEquiv (a, (0 : Fin 128)) : Fin (16 * 128)).val / 128, _⟩ else (0 : EReal)) = P a
    rw [if_pos hm]
    congr 1
    exact Fin.ext hd
  · intro b _ hb
    have hb' : b.val ≠ 0 := fun h0 => hb (Fin.ext h0)
    have hlt := b.isLt
    have hm : ¬ (finProdFinEquiv (a, b) : Fin (16 * 128)).val % 128 = 0 := by
      simp only [finProdFinEquiv_apply_val]; omega
    show (if (finProdFinEquiv (a, b) : Fin (16 * 128)).val % 128 = 0 then
        P ⟨(finProdFinEquiv (a, b) : Fin (16 * 128)).val / 128, _⟩ else (0 : EReal)) = 0
    rw [if_neg hm]
  · intro h; exact absurd (Finset.mem_univ _) h

/-- Sixteen tiles of 512 consecutive rows are the 8192 rows: the double sum over tile and row within the tile is
    the sum over all rows. -/
theorem tiles_sum (f : Fin 8192 → EReal) :
    ∑ t : Fin 16, ∑ r : Fin 512, f ⟨512 * t.val + r.val, by have := t.isLt; have := r.isLt; omega⟩ =
      ∑ R : Fin 8192, f R := by
  refine ((sum_fin_mul 16 512 f).trans (Finset.sum_congr rfl fun t _ => Finset.sum_congr rfl fun r _ => ?_)).symm
  congr 1
  apply Fin.ext
  simp only [finProdFinEquiv_apply_val]
  omega

/-- The sum over the 256 × 32 pairs is the sum over the 8192 pair numbers in row-major order. -/
theorem pairs_sum (g : Fin 256 → Fin 32 → EReal) :
    ∑ j : (⟨2, ![256, 32]⟩ : Shape).Idx, g (j 0) (j 1) = ∑ R : Fin 8192, g (Cert.Spec.pairB R) (Cert.Spec.pairN R) := by
  have h1 : ∑ j : (⟨2, ![256, 32]⟩ : Shape).Idx, g (j 0) (j 1) = ∑ a : Fin 256, ∑ b : Fin 32, g a b :=
    sum_idx2 (n0 := 256) (n1 := 32) (fun j => g (j 0) (j 1))
  rw [h1]
  refine ((sum_fin_mul 256 32 (fun R : Fin 8192 => g (Cert.Spec.pairB R) (Cert.Spec.pairN R))).trans
    (Finset.sum_congr rfl fun a _ => Finset.sum_congr rfl fun b _ => ?_)).symm
  have ha := a.isLt
  have hb := b.isLt
  have hB : Cert.Spec.pairB (finProdFinEquiv (a, b) : Fin (256 * 32)) = a := by
    apply Fin.ext
    show (finProdFinEquiv (a, b) : Fin (256 * 32)).val / 32 = a.val
    simp only [finProdFinEquiv_apply_val]; omega
  have hN : Cert.Spec.pairN (finProdFinEquiv (a, b) : Fin (256 * 32)) = b := by
    apply Fin.ext
    show (finProdFinEquiv (a, b) : Fin (256 * 32)).val % 32 = b.val
    simp only [finProdFinEquiv_apply_val]; omega
  show g (Cert.Spec.pairB (finProdFinEquiv (a, b) : Fin (256 * 32))) (Cert.Spec.pairN (finProdFinEquiv (a, b) : Fin (256 * 32))) = g a b
  rw [hB, hN]

/-- A sum over the index set of a 1 × 2048 array is the sum over its 2048 lanes: the first coordinate has one
    value. -/
theorem lanes_idx_sum (A : (⟨2, ![1, 2048]⟩ : Shape).Idx → EReal) :
    ∑ k : (⟨2, ![1, 2048]⟩ : Shape).Idx, A k = ∑ k : Fin 2048, A (ix2 (0 : Fin 1) k) := by
  rw [sum_idx2 A, Fin.sum_univ_one]

end Cert.Sums

end
-- ==== Proof.RefRows.lean ====
/-
  The reference's three per-pair arrays, read at a pair (b, n), are the specification's: the mask, the masked x-loss and
  the masked y-loss.

  Two of the reference's operations are not read at an index by the generated read module and are read here, over any
  extents: the gather along a row's last axis (the row's entry at the start index, read signed and clamped into the row)
  and the reduction by `and` that tests the start index's range. A clamped target is in its row's range, so the
  negative-index wrap leaves it alone, the range test is 1, and the gather's clamp is the specification's row index.
-/
import proofs.«408772_j8778913153573_3_alg».proof.Proof.RefReadP
import proofs.«408772_j8778913153573_3_alg».proof.Proof.Spec
import proofs.«408772_j8778913153573_3_alg».proof.Proof.Sums
import Idealize.ShloMosaic.PureOps.Ideal
import Idealize.ShloMosaic.PureOps.Ideal.Laws
import Idealize.ShloMosaic.PureOps.Reduce
import Idealize.ShloMosaic.PureOps.ShapeOps
import Idealize.ShloMosaic.PureOps.Dims
import Idealize.ShloMosaic.Lib.ValueIdx
import Idealize.ShloMosaic.Lib.ReduceAll
import Idealize.ShloMosaic.Lib.Affine
import Idealize.ShloMosaic.Lib.StableHlo.Predicate

noncomputable section

open scoped BigOperators

namespace Cert.RefRows

open Cert.ReferenceIdeal Cert.ReferenceIdeal.Gen Cert.ReferenceIdeal.ReadP Idealize.ShloMosaic Idealize.ShloMosaic.ValueIdx

/-! ## Two operations the read-at-an-index module leaves unread, over any extents -/

/-- A reduction by `and` of one-bit words that starts at 1 and meets only 1s is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a, show IntOp.andi 1#1 1#1 = 1#1 from by decide]
    exact foldl_andi_one f hf l

/-- A `stablehlo.reduce` by `and` from the initial value 1 over an operand that is 1 everywhere is 1 everywhere. -/
theorem reduce_andi_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x hx _

/-- The dimension numbers of a gather along the last axis of an operand `[B, N, L]`, one start index per pair
    `(b, n)`: start indices `[B, N, 1, 1]`, result `[B, N, 1]`; the first two axes are batching axes, the last is
    collapsed and is the one the start index names. -/
abbrev rowDims (B N L : Nat)
    (wf : GatherDims.WF ⟨3, ![B, N, L]⟩ ⟨4, ![B, N, 1, 1]⟩ ⟨3, ![B, N, 1]⟩ [] [2] [0, 1] [2] [0, 1] 3 ![1, 1, 1]) :
    GatherDims ⟨3, ![B, N, L]⟩ ⟨4, ![B, N, 1, 1]⟩ ⟨3, ![B, N, 1]⟩ where
  offsetDims := []
  collapsedSliceDims := [2]
  operandBatchingDims := [0, 1]
  startIndicesBatchingDims := [0, 1]
  startIndexMap := [2]
  indexVectorDim := 3
  sliceSizes := ![1, 1, 1]
  wf := wf

/-- The start-indices index `[b, n, c, 0]` of result index `(b, n, c)`. -/
abbrev rowIdx {B N : Nat} (y : (⟨3, ![B, N, 1]⟩ : Shape).Idx) : (⟨4, ![B, N, 1, 1]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨0, Nat.one_pos⟩

/-- The gather read at `(b, n, c)`: the operand's row `(b, n)` at the start index `idx[b, n, c, 0]`, read signed and
    clamped into `[0, L − 1]`. -/
theorem gather_row_apply {α : Type} {B N L w : Nat} (hL : 0 < L)
    (wf : GatherDims.WF ⟨3, ![B, N, L]⟩ ⟨4, ![B, N, 1, 1]⟩ ⟨3, ![B, N, 1]⟩ [] [2] [0, 1] [2] [0, 1] 3 ![1, 1, 1])
    (x : (⟨3, ![B, N, L]⟩ : Shape).Idx → α) (idx : IVec ⟨4, ![B, N, 1, 1]⟩ w) (y : (⟨3, ![B, N, 1]⟩ : Shape).Idx) :
    Host.gather (rowDims B N L wf) x idx y
      = x (ix3 (⟨(y 0).val, (y 0).isLt⟩ : Fin B) (⟨(y 1).val, (y 1).isLt⟩ : Fin N)
          (⟨min (idx (rowIdx y)).toInt.toNat (L - 1), by omega⟩ : Fin L)) := by
  unfold Host.gather
  congr 1
  funext a
  refine Fin.ext ?_
  match a with
  | ⟨0, _⟩ =>
    show (rowDims B N L wf).start y idx 0 + (rowDims B N L wf).batchCoord y 0 + (rowDims B N L wf).offCoord y 0 = (y 0).val
    have hb : (0 : Fin 3) ∈ (rowDims B N L wf).operandBatchingDims :=
      show (0 : Fin 3) ∈ ([0, 1] : List (Fin 3)) from by decide
    rw [GatherDims.start_batching _ _ _ _ hb,
      GatherDims.offCoord_eq_zero _ _ _ (fun h => ((GatherDims.mem_sKept _ _).mp h).2 hb), Nat.zero_add, Nat.add_zero]
    unfold GatherDims.batchCoord
    rw [dif_pos hb]
    rfl
  | ⟨1, _⟩ =>
    show (rowDims B N L wf).start y idx 1 + (rowDims B N L wf).batchCoord y 1 + (rowDims B N L wf).offCoord y 1 = (y 1).val
    have hb : (1 : Fin 3) ∈ (rowDims B N L wf).operandBatchingDims :=
      show (1 : Fin 3) ∈ ([0, 1] : List (Fin 3)) from by decide
    rw [GatherDims.start_batching _ _ _ _ hb,
      GatherDims.offCoord_eq_zero _ _ _ (fun h => ((GatherDims.mem_sKept _ _).mp h).2 hb), Nat.zero_add, Nat.add_zero]
    unfold GatherDims.batchCoord
    rw [dif_pos hb]
    rfl
  | ⟨2, _⟩ =>
    show (rowDims B N L wf).start y idx 2 + (rowDims B N L wf).batchCoord y 2 + (rowDims B N L wf).offCoord y 2
      = min (idx (rowIdx y)).toInt.toNat (L - 1)
    have hnb : (2 : Fin 3) ∉ (rowDims B N L wf).operandBatchingDims :=
      show (2 : Fin 3) ∉ ([0, 1] : List (Fin 3)) from by decide
    have hc : (2 : Fin 3) ∈ (rowDims B N L wf).collapsedSliceDims :=
      show (2 : Fin 3) ∈ ([2] : List (Fin 3)) from by decide
    have hm : (2 : Fin 3) ∈ (rowDims B N L wf).startIndexMap :=
      show (2 : Fin 3) ∈ ([2] : List (Fin 3)) from by decide
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : (rowDims B N L wf).siIdx y ⟨List.idxOf (2 : Fin 3) (rowDims B N L wf).startIndexMap,
        List.idxOf_lt_length_iff.2 hm⟩ = rowIdx y := by
      funext b; refine Fin.ext ?_
      match b with
      | ⟨0, _⟩ => rfl
      | ⟨1, _⟩ => rfl
      | ⟨2, _⟩ => rfl
      | ⟨3, _⟩ => rfl
    rw [hsi]
    rfl

/-- The gather read at an index `y` whose first two coordinates are `(b, n)` and whose start index is the word `t`: the
    operand's row `(b, n)` at the entry `t` names, read signed and clamped into the row. -/
theorem gather_row_at {α : Type} {B N L w : Nat} (hL : 0 < L)
    (wf : GatherDims.WF ⟨3, ![B, N, L]⟩ ⟨4, ![B, N, 1, 1]⟩ ⟨3, ![B, N, 1]⟩ [] [2] [0, 1] [2] [0, 1] 3 ![1, 1, 1])
    (x : (⟨3, ![B, N, L]⟩ : Shape).Idx → α) (idx : IVec ⟨4, ![B, N, 1, 1]⟩ 32) (y : (⟨3, ![B, N, 1]⟩ : Shape).Idx)
    (b : Fin B) (n : Fin N) (hb : (y 0).val = b.val) (hn : (y 1).val = n.val) (t : BitVec 32) (ht : idx (rowIdx y) = t) :
    Host.gather (rowDims B N L wf) x idx y = x (ix3 b n (Cert.Spec.tIdx L hL t)) := by
  rw [gather_row_apply hL wf x idx y]
  congr 1
  funext a; refine Fin.ext ?_
  match a with
  | ⟨0, _⟩ => exact hb
  | ⟨1, _⟩ => exact hn
  | ⟨2, _⟩ =>
    show min (idx (rowIdx y)).toInt.toNat (L - 1) = min t.toInt.toNat (L - 1)
    rw [ht]

/-! ## Words: a word in `[0, hi]`, `hi` below 2³¹, passes the index wrap unchanged and passes the in-range test -/

/-- A word below 2³¹ is not negative, so "add the row length to a negative index" leaves it alone. -/
theorem wrap_nonneg (t m : BitVec 32) (ht : t.toNat < 2 ^ 31) :
    Scalar.select (IntOp.cmpi .slt t 0#32) (IntOp.addi t m) t = t := by
  have h : IntOp.cmpi .slt t 0#32 = 0#1 := by
    apply eq_zero_of_ne_one
    rw [StableHlo.Predicate.slt_iff_toNat ht (by decide)]
    exact Nat.not_lt_zero _
  rw [h, select_zero]

/-- A word in `[0, hi]` passes the test "0 ≤ t and t ≤ hi" (both signed). -/
theorem inrange_one (hi t : BitVec 32) (hhi : hi.toNat < 2 ^ 31) (ht : t.toNat ≤ hi.toNat) :
    IntOp.andi (IntOp.cmpi .sge t 0#32) (IntOp.cmpi .sle t hi) = 1#1 := by
  have htl : t.toNat < 2 ^ 31 := by omega
  rw [IntOp.andi_eq_one]
  exact ⟨(StableHlo.Predicate.sge_iff_toNat htl (by decide)).mpr (Nat.zero_le _),
    (StableHlo.Predicate.sle_iff_toNat htl hhi).mpr ht⟩

/-- The wrap of a negative index leaves a clamped word alone. -/
theorem wrap_clamp (hi w m : BitVec 32) (hhi : hi.toNat < 2 ^ 31) :
    Scalar.select (IntOp.cmpi .slt (Cert.Spec.clampW hi w) 0#32) (IntOp.addi (Cert.Spec.clampW hi w) m)
      (Cert.Spec.clampW hi w) = Cert.Spec.clampW hi w :=
  wrap_nonneg _ _ (by have := Cert.Sums.clampW_toNat_le hi w hhi; omega)

/-- A clamped word passes the range test of its own clamp. -/
theorem range_clamp (hi w : BitVec 32) (hhi : hi.toNat < 2 ^ 31) :
    IntOp.andi (IntOp.cmpi .sge (Cert.Spec.clampW hi w) 0#32) (IntOp.cmpi .sle (Cert.Spec.clampW hi w) hi) = 1#1 :=
  inrange_one hi _ hhi (Cert.Sums.clampW_toNat_le hi w hhi)

/-! ## Row-major arithmetic of the pairs -/

/-- Pair number b · 32 + n splits back into (b, n). -/
theorem split_pair (b : Fin 256) (n : Fin 32) :
    (b.val * 32 + n.val) / 32 = b.val ∧ (b.val * 32 + n.val) / 1 % 32 = n.val := by
  have := b.isLt; have := n.isLt; constructor <;> omega

/-- An index of the pairs whose coordinates are the row-major split of `[y0, y1, y2, 0]`, with `(y0, y1) = (b, n)`, is the
    pair (b, n). -/
theorem pair_of_row (y : (⟨3, ![256, 32, 1]⟩ : Shape).Idx) (b : Fin 256) (n : Fin 32) (hb : (y 0).val = b.val)
    (hn : (y 1).val = n.val) (j : (⟨2, ![256, 32]⟩ : Shape).Idx)
    (h0 : (j 0).val = ((((y 0).val * 32 + (y 1).val) * 1 + (y 2).val) * 1 + 0) / 32)
    (h1 : (j 1).val = ((((y 0).val * 32 + (y 1).val) * 1 + (y 2).val) * 1 + 0) / 1 % 32) : j = ix2 b n := by
  funext a; refine Fin.ext ?_
  have hy0 : (y 0).val < 256 := (y 0).isLt
  have hy1 : (y 1).val < 32 := (y 1).isLt
  have hy2 : (y 2).val < 1 := (y 2).isLt
  match a with
  | ⟨0, _⟩ => show (j 0).val = b.val; omega
  | ⟨1, _⟩ => show (j 1).val = n.val; omega

/-! ## The targets and the mask -/

section Targets
variable (x2 : (⟨S256x32x2, .i32⟩ : BufTy).Contents (Elt Ideal))

/-- The x target word of pair (b, n) is the target array's entry (b, n, 0). -/
theorem v1_ix (b : Fin 256) (n : Fin 32) : val_main_v1 (F := Ideal) x2 (ix2 b n) = x2 (ix3 b n (0 : Fin 2)) := by
  rw [val_main_v1_apply, val_main_v0_apply]
  congr 1
  funext a; refine Fin.ext ?_
  have hb := b.isLt; have hn := n.isLt
  match a with
  | ⟨0, _⟩ => show (b.val * 32 + n.val) / 32 = b.val; omega
  | ⟨1, _⟩ => show (b.val * 32 + n.val) / 1 % 32 = n.val; omega
  | ⟨2, _⟩ => rfl

/-- The y target word of pair (b, n) is the target array's entry (b, n, 1). -/
theorem v4_ix (b : Fin 256) (n : Fin 32) : val_main_v4 (F := Ideal) x2 (ix2 b n) = x2 (ix3 b n (1 : Fin 2)) := by
  rw [val_main_v4_apply, val_main_v3_apply]
  congr 1
  funext a; refine Fin.ext ?_
  have hb := b.isLt; have hn := n.isLt
  match a with
  | ⟨0, _⟩ => show (b.val * 32 + n.val) / 32 = b.val; omega
  | ⟨1, _⟩ => show (b.val * 32 + n.val) / 1 % 32 = n.val; omega
  | ⟨2, _⟩ => rfl

/-- The clipped x target, at any index, is the signed clamp of the target word there into [0, 1919]. -/
theorem v2_clamp (j : S256x32.Idx) :
    val_main_v2 (F := Ideal) x2 j = Cert.Spec.clampW 1919#32 (val_main_v1 (F := Ideal) x2 j) := by
  rw [val_main_v2_apply, val_main_call0_v4_apply, val_main_call0_v3_apply, val_main_c_0_apply, val_main_call0_v2_apply,
    val_main_call0_v1_apply, val_main_call0_v0_apply, val_main_c_apply]
  rfl

/-- The clipped y target, at any index, is the signed clamp of the target word there into [0, 1079]. -/
theorem v5_clamp (j : S256x32.Idx) :
    val_main_v5 (F := Ideal) x2 j = Cert.Spec.clampW 1079#32 (val_main_v4 (F := Ideal) x2 j) := by
  rw [val_main_v5_apply, val_main_call1_v4_apply, val_main_call1_v3_apply, val_main_c_2_apply, val_main_call1_v2_apply,
    val_main_call1_v1_apply, val_main_call1_v0_apply, val_main_c_1_apply]
  rfl

/-- The clipped x target of pair (b, n) is the specification's. -/
theorem v2_tX (b : Fin 256) (n : Fin 32) : val_main_v2 (F := Ideal) x2 (ix2 b n) = Cert.Spec.tX x2 b n := by
  rw [v2_clamp, v1_ix]; rfl

/-- The clipped y target of pair (b, n) is the specification's. -/
theorem v5_tY (b : Fin 256) (n : Fin 32) : val_main_v5 (F := Ideal) x2 (ix2 b n) = Cert.Spec.tY x2 b n := by
  rw [v5_clamp, v4_ix]; rfl

end Targets

/-- The reference's mask at pair (b, n) is the specification's: 0 when both clamped targets are 0, else 1. -/
theorem ref_mask (x2 : (⟨S256x32x2, .i32⟩ : BufTy).Contents (Elt Ideal)) (b : Fin 256) (n : Fin 32) :
    Cert.ReferenceIdeal.ReadP.val_main_v12 (F := Ideal) x2 (ix2 b n) = Cert.Spec.mk x2 b n := by
  rw [val_main_v12_apply, val_main_v11_apply, val_main_v10_apply, val_main_v7_apply, val_main_v9_apply, val_main_v6_apply,
    val_main_c_3_apply, val_main_v8_apply, val_main_c_4_apply, v2_tX, v5_tY]
  rfl

/-! ## The take-along-axis calls of the x side: the picked clamped logarithm (call 2) and the picked clamped logarithm
    of the complement (call 3). Both read at the same start index. -/

section CallsX
variable (x2 : (⟨S256x32x2, .i32⟩ : BufTy).Contents (Elt Ideal))

/-- The start index, at any index, is the clipped x target there: in [0, 1919], so the wrap of a negative index leaves
    it alone. -/
theorem call2_v5_eq (i : S256x32x1x1.Idx) :
    val_main_call2_v5 (F := Ideal) x2 i = val_main_v2 (F := Ideal) x2 (idx_main_v20 (idx_main_call2_v5 i)) := by
  rw [val_main_call2_v5_apply, val_main_call2_v4_apply, val_main_call2_v1_apply, val_main_call2_v3_apply,
    val_main_call2_v0_apply, val_main_call2_c_apply, val_main_v20_apply, v2_clamp]
  exact wrap_clamp 1919#32 _ _ (by decide)

/-- So the range test is 1 at every index before its reduction … -/
theorem call2_v11_one (i : S256x32x1x1.Idx) : val_main_call2_v11 (F := Ideal) x2 i = 1#1 := by
  rw [val_main_call2_v11_apply, val_main_call2_v7_apply, val_main_call2_v10_apply, val_main_call2_v6_apply,
    val_main_call2_c_2_apply, val_main_call2_v9_apply, val_main_call2_v8_apply, val_main_call2_c_1_apply, call2_v5_eq,
    v2_clamp]
  exact range_clamp 1919#32 _ (by decide)

/-- … and after it. -/
theorem call2_v12_one (y : S256x32x1.Idx) : val_main_call2_v12 (F := Ideal) x2 y = 1#1 := by
  unfold val_main_call2_v12
  exact reduce_andi_all_one _ _ _ _ rfl (call2_v11_one x2) y

/-- At an index whose first two coordinates are (b, n) the start index is the pair's clamped x target. -/
theorem call2_start (y : S256x32x1.Idx) (b : Fin 256) (n : Fin 32) (hb : (y 0).val = b.val) (hn : (y 1).val = n.val) :
    val_main_call2_v5 (F := Ideal) x2 (rowIdx y) = Cert.Spec.tX x2 b n := by
  rw [call2_v5_eq, pair_of_row y b n hb hn (idx_main_v20 (idx_main_call2_v5 (rowIdx y))) rfl rfl, v2_tX]

/-- Call 3 computes the same start index and the same range test as call 2. -/
theorem call3_v5_same : val_main_call3_v5 (F := Ideal) x2 = val_main_call2_v5 (F := Ideal) x2 := rfl
theorem call3_v12_same : val_main_call3_v12 (F := Ideal) x2 = val_main_call2_v12 (F := Ideal) x2 := rfl

variable (x0 : (⟨S256x32x1920, .f32⟩ : BufTy).Contents (Elt Ideal))

/-- Call 2's result at an index whose first two coordinates are (b, n): the clamped logarithms' row (b, n) at the entry
    the pair's clamped x target names. -/
theorem v21_read (y : S256x32x1.Idx) (b : Fin 256) (n : Fin 32) (hb : (y 0).val = b.val) (hn : (y 1).val = n.val) :
    val_main_v21 (F := Ideal) x0 x2 y
      = val_main_v15 (F := Ideal) x0 (ix3 b n (Cert.Spec.tIdx 1920 (by decide) (Cert.Spec.tX x2 b n))) := by
  rw [val_main_v21_apply, call2_v12_one, select_one]
  unfold val_main_call2_v13
  exact gather_row_at (B := 256) (N := 32) (L := 1920) (w := 32) (by decide)
    Facts₀.gather_S256x32x1920_S256x32x1x1_S256x32x1_n_2_01_01_2_3_111_wf (val_main_v15 (F := Ideal) x0)
    (val_main_call2_v5 (F := Ideal) x2) y b n hb hn _ (call2_start x2 y b n hb hn)

/-- Call 3's result there: the same entry of the complements' clamped logarithms. -/
theorem v23_read (y : S256x32x1.Idx) (b : Fin 256) (n : Fin 32) (hb : (y 0).val = b.val) (hn : (y 1).val = n.val) :
    val_main_v23 (F := Ideal) x0 x2 y
      = val_main_v19 (F := Ideal) x0 (ix3 b n (Cert.Spec.tIdx 1920 (by decide) (Cert.Spec.tX x2 b n))) := by
  rw [val_main_v23_apply, call3_v12_same, call2_v12_one, select_one]
  unfold val_main_call3_v13
  rw [call3_v5_same]
  exact gather_row_at (B := 256) (N := 32) (L := 1920) (w := 32) (by decide)
    Facts₀.gather_S256x32x1920_S256x32x1x1_S256x32x1_n_2_01_01_2_3_111_wf (val_main_v19 (F := Ideal) x0)
    (val_main_call2_v5 (F := Ideal) x2) y b n hb hn _ (call2_start x2 y b n hb hn)

end CallsX

/-! ## The x side: the clamped logarithms, the row sum and the masked loss -/

section LossX
variable (x0 : (⟨S256x32x1920, .f32⟩ : BufTy).Contents (Elt Ideal)) (x2 : (⟨S256x32x2, .i32⟩ : BufTy).Contents (Elt Ideal))

/-- The clamped logarithm of the x probabilities, at any index. -/
theorem v15_lg (i : S256x32x1920.Idx) : val_main_v15 (F := Ideal) x0 i = Cert.Spec.lg (x0 i) := by
  rw [val_main_v15_apply, val_main_v13_apply, val_main_v14_apply, val_main_cst_apply]
  rfl

/-- The clamped logarithm of their complements, at any index. -/
theorem v19_lg1 (i : S256x32x1920.Idx) : val_main_v19 (F := Ideal) x0 i = Cert.Spec.lg1 (x0 i) := by
  rw [val_main_v19_apply, val_main_v17_apply, val_main_v16_apply, val_main_v18_apply, val_main_cst_5_apply]
  rfl

/-- The clamped logarithm picked at the pair's x target. -/
theorem v22_pair (b : Fin 256) (n : Fin 32) :
    val_main_v22 (F := Ideal) x0 x2 (ix2 b n)
      = Cert.Spec.lg (x0 (ix3 b n (Cert.Spec.tIdx 1920 (by decide) (Cert.Spec.tX x2 b n)))) := by
  rw [val_main_v22_apply, v21_read x2 x0 (idx_main_v22 (ix2 b n)) b n (split_pair b n).1 (split_pair b n).2, v15_lg]

/-- The complement's clamped logarithm picked at the pair's x target. -/
theorem v24_pair (b : Fin 256) (n : Fin 32) :
    val_main_v24 (F := Ideal) x0 x2 (ix2 b n)
      = Cert.Spec.lg1 (x0 (ix3 b n (Cert.Spec.tIdx 1920 (by decide) (Cert.Spec.tX x2 b n)))) := by
  rw [val_main_v24_apply, v23_read x2 x0 (idx_main_v24 (ix2 b n)) b n (split_pair b n).1 (split_pair b n).2, v19_lg1]

/-- The row sum of the complements' clamped logarithms, from the initial value 0. -/
theorem v25_pair (b : Fin 256) (n : Fin 32) :
    val_main_v25 (F := Ideal) x0 (ix2 b n) = 0 + ∑ k : Fin 1920, Cert.Spec.lg1 (x0 (ix3 b n k)) := by
  rw [val_main_v25_apply, val_main_cst_6_apply, Ideal.ofBits_def, Ideal.ofBits_zero_f32]
  refine congrArg (0 + ·) (Finset.sum_congr rfl fun k _ => ?_)
  rw [v19_lg1]
  exact congrArg (fun I => Cert.Spec.lg1 (x0 I)) (funext fun a => Fin.ext (by
    match a with
    | ⟨0, _⟩ => rfl
    | ⟨1, _⟩ => rfl
    | ⟨2, _⟩ => rfl))

end LossX

/-- The reference's masked x-loss at pair (b, n) is the specification's. -/
theorem ref_wX (x0 : (⟨S256x32x1920, .f32⟩ : BufTy).Contents (Elt Ideal)) (x2 : (⟨S256x32x2, .i32⟩ : BufTy).Contents (Elt Ideal))
    (b : Fin 256) (n : Fin 32) :
    Cert.ReferenceIdeal.ReadP.val_main_v50 (F := Ideal) x0 x2 (ix2 b n) = Cert.Spec.wX x0 x2 b n := by
  rw [val_main_v50_apply, val_main_v30_apply, val_main_v28_apply, val_main_v26_apply, val_main_v27_apply,
    val_main_v29_apply, val_main_cst_7_apply, v22_pair, v24_pair, v25_pair, ref_mask]
  rfl

/-! ## The take-along-axis calls of the y side: the picked clamped logarithm (call 4) and the picked clamped logarithm
    of the complement (call 5). Both read at the same start index. -/

section CallsY
variable (x2 : (⟨S256x32x2, .i32⟩ : BufTy).Contents (Elt Ideal))

/-- The start index, at any index, is the clipped y target there: in [0, 1079], so the wrap of a negative index leaves
    it alone. -/
theorem call4_v5_eq (i : S256x32x1x1.Idx) :
    val_main_call4_v5 (F := Ideal) x2 i = val_main_v5 (F := Ideal) x2 (idx_main_v38 (idx_main_call4_v5 i)) := by
  rw [val_main_call4_v5_apply, val_main_call4_v4_apply, val_main_call4_v1_apply, val_main_call4_v3_apply,
    val_main_call4_v0_apply, val_main_call4_c_apply, val_main_v38_apply, v5_clamp]
  exact wrap_clamp 1079#32 _ _ (by decide)

/-- So the range test is 1 at every index before its reduction … -/
theorem call4_v11_one (i : S256x32x1x1.Idx) : val_main_call4_v11 (F := Ideal) x2 i = 1#1 := by
  rw [val_main_call4_v11_apply, val_main_call4_v7_apply, val_main_call4_v10_apply, val_main_call4_v6_apply,
    val_main_call4_c_2_apply, val_main_call4_v9_apply, val_main_call4_v8_apply, val_main_call4_c_1_apply, call4_v5_eq,
    v5_clamp]
  exact range_clamp 1079#32 _ (by decide)

/-- … and after it. -/
theorem call4_v12_one (y : S256x32x1.Idx) : val_main_call4_v12 (F := Ideal) x2 y = 1#1 := by
  unfold val_main_call4_v12
  exact reduce_andi_all_one _ _ _ _ rfl (call4_v11_one x2) y

/-- At an index whose first two coordinates are (b, n) the start index is the pair's clamped y target. -/
theorem call4_start (y : S256x32x1.Idx) (b : Fin 256) (n : Fin 32) (hb : (y 0).val = b.val) (hn : (y 1).val = n.val) :
    val_main_call4_v5 (F := Ideal) x2 (rowIdx y) = Cert.Spec.tY x2 b n := by
  rw [call4_v5_eq, pair_of_row y b n hb hn (idx_main_v38 (idx_main_call4_v5 (rowIdx y))) rfl rfl, v5_tY]

/-- Call 5 computes the same start index and the same range test as call 4. -/
theorem call5_v5_same : val_main_call5_v5 (F := Ideal) x2 = val_main_call4_v5 (F := Ideal) x2 := rfl
theorem call5_v12_same : val_main_call5_v12 (F := Ideal) x2 = val_main_call4_v12 (F := Ideal) x2 := rfl

variable (x1 : (⟨S256x32x1080, .f32⟩ : BufTy).Contents (Elt Ideal))

/-- Call 4's result at an index whose first two coordinates are (b, n): the clamped logarithms' row (b, n) at the entry
    the pair's clamped y target names. -/
theorem v39_read (y : S256x32x1.Idx) (b : Fin 256) (n : Fin 32) (hb : (y 0).val = b.val) (hn : (y 1).val = n.val) :
    val_main_v39 (F := Ideal) x1 x2 y
      = val_main_v33 (F := Ideal) x1 (ix3 b n (Cert.Spec.tIdx 1080 (by decide) (Cert.Spec.tY x2 b n))) := by
  rw [val_main_v39_apply, call4_v12_one, select_one]
  unfold val_main_call4_v13
  exact gather_row_at (B := 256) (N := 32) (L := 1080) (w := 32) (by decide)
    Facts₀.gather_S256x32x1080_S256x32x1x1_S256x32x1_n_2_01_01_2_3_111_wf (val_main_v33 (F := Ideal) x1)
    (val_main_call4_v5 (F := Ideal) x2) y b n hb hn _ (call4_start x2 y b n hb hn)

/-- Call 5's result there: the same entry of the complements' clamped logarithms. -/
theorem v41_read (y : S256x32x1.Idx) (b : Fin 256) (n : Fin 32) (hb : (y 0).val = b.val) (hn : (y 1).val = n.val) :
    val_main_v41 (F := Ideal) x1 x2 y
      = val_main_v37 (F := Ideal) x1 (ix3 b n (Cert.Spec.tIdx 1080 (by decide) (Cert.Spec.tY x2 b n))) := by
  rw [val_main_v41_apply, call5_v12_same, call4_v12_one, select_one]
  unfold val_main_call5_v13
  rw [call5_v5_same]
  exact gather_row_at (B := 256) (N := 32) (L := 1080) (w := 32) (by decide)
    Facts₀.gather_S256x32x1080_S256x32x1x1_S256x32x1_n_2_01_01_2_3_111_wf (val_main_v37 (F := Ideal) x1)
    (val_main_call4_v5 (F := Ideal) x2) y b n hb hn _ (call4_start x2 y b n hb hn)

end CallsY

/-! ## The y side: the clamped logarithms, the row sum and the masked loss -/

section LossY
variable (x1 : (⟨S256x32x1080, .f32⟩ : BufTy).Contents (Elt Ideal)) (x2 : (⟨S256x32x2, .i32⟩ : BufTy).Contents (Elt Ideal))

/-- The clamped logarithm of the y probabilities, at any index. -/
theorem v33_lg (i : S256x32x1080.Idx) : val_main_v33 (F := Ideal) x1 i = Cert.Spec.lg (x1 i) := by
  rw [val_main_v33_apply, val_main_v31_apply, val_main_v32_apply, val_main_cst_8_apply]
  rfl

/-- The clamped logarithm of their complements, at any index. -/
theorem v37_lg1 (i : S256x32x1080.Idx) : val_main_v37 (F := Ideal) x1 i = Cert.Spec.lg1 (x1 i) := by
  rw [val_main_v37_apply, val_main_v35_apply, val_main_v34_apply, val_main_v36_apply, val_main_cst_9_apply]
  rfl

/-- The clamped logarithm picked at the pair's y target. -/
theorem v40_pair (b : Fin 256) (n : Fin 32) :
    val_main_v40 (F := Ideal) x1 x2 (ix2 b n)
      = Cert.Spec.lg (x1 (ix3 b n (Cert.Spec.tIdx 1080 (by decide) (Cert.Spec.tY x2 b n)))) := by
  rw [val_main_v40_apply, v39_read x2 x1 (idx_main_v40 (ix2 b n)) b n (split_pair b n).1 (split_pair b n).2, v33_lg]

/-- The complement's clamped logarithm picked at the pair's y target. -/
theorem v42_pair (b : Fin 256) (n : Fin 32) :
    val_main_v42 (F := Ideal) x1 x2 (ix2 b n)
      = Cert.Spec.lg1 (x1 (ix3 b n (Cert.Spec.tIdx 1080 (by decide) (Cert.Spec.tY x2 b n)))) := by
  rw [val_main_v42_apply, v41_read x2 x1 (idx_main_v42 (ix2 b n)) b n (split_pair b n).1 (split_pair b n).2, v37_lg1]

/-- The row sum of the complements' clamped logarithms, from the initial value 0. -/
theorem v43_pair (b : Fin 256) (n : Fin 32) :
    val_main_v43 (F := Ideal) x1 (ix2 b n) = 0 + ∑ k : Fin 1080, Cert.Spec.lg1 (x1 (ix3 b n k)) := by
  rw [val_main_v43_apply, val_main_cst_10_apply, Ideal.ofBits_def, Ideal.ofBits_zero_f32]
  refine congrArg (0 + ·) (Finset.sum_congr rfl fun k _ => ?_)
  rw [v37_lg1]
  exact congrArg (fun I => Cert.Spec.lg1 (x1 I)) (funext fun a => Fin.ext (by
    match a with
    | ⟨0, _⟩ => rfl
    | ⟨1, _⟩ => rfl
    | ⟨2, _⟩ => rfl))

end LossY

/-- The reference's masked y-loss at pair (b, n) is the specification's. -/
theorem ref_wY (x1 : (⟨S256x32x1080, .f32⟩ : BufTy).Contents (Elt Ideal)) (x2 : (⟨S256x32x2, .i32⟩ : BufTy).Contents (Elt Ideal))
    (b : Fin 256) (n : Fin 32) :
    Cert.ReferenceIdeal.ReadP.val_main_v52 (F := Ideal) x1 x2 (ix2 b n) = Cert.Spec.wY x1 x2 b n := by
  rw [val_main_v52_apply, val_main_v48_apply, val_main_v46_apply, val_main_v44_apply, val_main_v45_apply,
    val_main_v47_apply, val_main_cst_11_apply, v40_pair, v42_pair, v43_pair, ref_mask]
  rfl

end Cert.RefRows

end
-- ==== Proof.Total.lean ====
/-
  The result both programs compute, as one function of the three argument arrays, and the regrouping of the kernel's
  sums into it: 2048 lanes holding sixteen tile sums, each tile 512 consecutive pairs, are the sum over all pairs.
-/
import proofs.«408772_j8778913153573_3_alg».proof.Proof.Spec
import proofs.«408772_j8778913153573_3_alg».proof.Proof.Sums
import Idealize.ShloMosaic.PureOps.Ideal.Laws

noncomputable section

open scoped BigOperators

namespace Cert.Total

open Idealize.ShloMosaic Idealize.ShloMosaic.ValueIdx

/-- The sum of a per-pair quantity over the 256 × 32 pairs. -/
def sumPairs (g : Fin 256 → Fin 32 → EReal) : EReal := ∑ j : (⟨2, ![256, 32]⟩ : Shape).Idx, g (j 0) (j 1)

/-- The last stage: each masked total over the masked count, the count raised to at least 1. -/
def ratio (sx sy sc : EReal) : EReal :=
  Ideal.div sx (max sc (Ideal.ofBits .f32 0x3F800000#32)) + Ideal.div sy (max sc (Ideal.ofBits .f32 0x3F800000#32))

/-- The result: the masked x-losses and the masked y-losses summed over the pairs, each over the masked count. -/
def result (x0 : Cert.Spec.ArrX) (x1 : Cert.Spec.ArrY) (x2 : Cert.Spec.ArrT) : EReal :=
  ratio (0 + sumPairs (Cert.Spec.wX x0 x2)) (0 + sumPairs (Cert.Spec.wY x1 x2)) (0 + sumPairs (Cert.Spec.mk x2))

/-- Sixteen tile sums of 512 consecutive pairs each are the sum over all pairs. -/
theorem tiles_total (g : Fin 256 → Fin 32 → EReal) :
    ∑ T : Fin 16, ∑ r : Fin 512,
        g (Cert.Spec.pairB ⟨512 * T.val + r.val, by have := T.isLt; have := r.isLt; omega⟩)
          (Cert.Spec.pairN ⟨512 * T.val + r.val, by have := T.isLt; have := r.isLt; omega⟩)
      = sumPairs g := by
  unfold sumPairs
  rw [Cert.Sums.pairs_sum g]
  exact Cert.Sums.tiles_sum (fun R : Fin 8192 => g (Cert.Spec.pairB R) (Cert.Spec.pairN R))

end Cert.Total

end
-- ==== Proof.RefTotal.lean ====
/-
  The reference's result is the specification's: its three sums over all pairs are the sums of the masked x-losses, the
  masked y-losses and the masks, and its last stage divides the two loss totals by the masked count raised to at least 1
  and adds the quotients.
-/
import proofs.«408772_j8778913153573_3_alg».proof.Proof.RefReadP
import proofs.«408772_j8778913153573_3_alg».proof.Proof.RefRows
import proofs.«408772_j8778913153573_3_alg».proof.Proof.Total
import Idealize.ShloMosaic.PureOps.Ideal
import Idealize.ShloMosaic.PureOps.Ideal.Laws
import Idealize.ShloMosaic.Lib.ValueIdx

noncomputable section

open scoped BigOperators

namespace Cert.RefTotal

open Cert.ReferenceIdeal Cert.ReferenceIdeal.Gen Cert.ReferenceIdeal.ReadP Idealize.ShloMosaic Idealize.ShloMosaic.ValueIdx

section Sums
variable (x0 : (⟨S256x32x1920, .f32⟩ : BufTy).Contents (Elt Ideal)) (x1 : (⟨S256x32x1080, .f32⟩ : BufTy).Contents (Elt Ideal))
  (x2 : (⟨S256x32x2, .i32⟩ : BufTy).Contents (Elt Ideal))

/-- The reference's masked x-losses summed over all pairs: every index of the pairs is the pair of its coordinates. -/
theorem sum_wX : ∑ j : S256x32.Idx, val_main_v50 (F := Ideal) x0 x2 j = Cert.Total.sumPairs (Cert.Spec.wX x0 x2) := by
  unfold Cert.Total.sumPairs
  exact Finset.sum_congr rfl fun j _ =>
    (congrArg (val_main_v50 (F := Ideal) x0 x2) (eq_ix2 j)).trans (Cert.RefRows.ref_wX x0 x2 (j 0) (j 1))

/-- The reference's masked y-losses summed over all pairs. -/
theorem sum_wY : ∑ j : S256x32.Idx, val_main_v52 (F := Ideal) x1 x2 j = Cert.Total.sumPairs (Cert.Spec.wY x1 x2) := by
  unfold Cert.Total.sumPairs
  exact Finset.sum_congr rfl fun j _ =>
    (congrArg (val_main_v52 (F := Ideal) x1 x2) (eq_ix2 j)).trans (Cert.RefRows.ref_wY x1 x2 (j 0) (j 1))

/-- The reference's masks summed over all pairs: the masked count. -/
theorem sum_mk : ∑ j : S256x32.Idx, val_main_v12 (F := Ideal) x2 j = Cert.Total.sumPairs (Cert.Spec.mk x2) := by
  unfold Cert.Total.sumPairs
  exact Finset.sum_congr rfl fun j _ =>
    (congrArg (val_main_v12 (F := Ideal) x2) (eq_ix2 j)).trans (Cert.RefRows.ref_mask x2 (j 0) (j 1))

end Sums

/-- The reference's result, a rank-0 array, is the specification's result at its one index. -/
theorem ref_result (x0 : (⟨S256x32x1920, .f32⟩ : BufTy).Contents (Elt Ideal)) (x1 : (⟨S256x32x1080, .f32⟩ : BufTy).Contents (Elt Ideal))
    (x2 : (⟨S256x32x2, .i32⟩ : BufTy).Contents (Elt Ideal)) :
    Cert.ReferenceIdeal.ReadP.val_main_v57 (F := Ideal) x0 x1 x2 = fun _ => Cert.Total.result x0 x1 x2 := by
  funext i
  rw [val_main_v57_apply, val_main_v55_apply, val_main_v56_apply, val_main_v54_apply, val_main_cst_15_apply,
    val_main_v51_apply, val_main_v53_apply, val_main_v49_apply, val_main_cst_13_apply, val_main_cst_14_apply,
    val_main_cst_12_apply, sum_wX, sum_wY, sum_mk]
  simp only [Ideal.ofBits_def, Ideal.ofBits_zero_f32]
  rfl

end Cert.RefTotal

end
-- ==== Proof.KerArrays.lean ====
/-
  The five arrays the kernel's windows read, as the kernel finds them, in terms of the three argument arrays:
  the two probability arrays flattened to 8192 rows, the two clamped target columns and the mask column, each an
  8192 × 1 array whose row R belongs to the pair (R / 32, R % 32).
-/
import proofs.«408772_j8778913153573_3_alg».proof.Proof.Gen.KernelIdeal.Frame
import proofs.«408772_j8778913153573_3_alg».proof.Proof.Spec
import Idealize.ShloMosaic.Lib.StableHlo.Run
import Idealize.ShloMosaic.Lib.Pipeline.Value
import Idealize.ShloMosaic.Lib.ValueIdx

noncomputable section

namespace Cert.KerArrays

open Cert.KernelIdeal Cert.KernelIdeal.Gen Idealize.ShloMosaic Idealize.ShloMosaic.TcCoe Idealize.SL.Sem
open Idealize.ShloMosaic.StableHlo Idealize.ShloMosaic.ValueIdx

/-! ## The host arrays as whole-array terms -/

/-- The clamped x targets, one per pair. -/
def txArr (x2 : IVec S256x32x2 32) : IVec S256x32 32 :=
  minsi (broadcastInDim S256x32 ![] bcast_S_S256x32 (constantI S_ 32 1919#32))
    (maxsi (broadcastInDim S256x32 ![] bcast_S_S256x32 (constantI S_ 32 0#32))
      (shapeCast S256x32 (extractStridedSlice S256x32x1 ![0, 0, 0] x2 slices_S256x32x2_S256x32x1_0_0_0) shapeCasts_S256x32x1_S256x32))

/-- The clamped y targets, one per pair. -/
def tyArr (x2 : IVec S256x32x2 32) : IVec S256x32 32 :=
  minsi (broadcastInDim S256x32 ![] bcast_S_S256x32 (constantI S_ 32 1079#32))
    (maxsi (broadcastInDim S256x32 ![] bcast_S_S256x32 (constantI S_ 32 0#32))
      (shapeCast S256x32 (extractStridedSlice S256x32x1 ![0, 0, 1] x2 slices_S256x32x2_S256x32x1_0_0_1) shapeCasts_S256x32x1_S256x32))

/-- The mask, one per pair: 0 where both clamped targets are 0. -/
def vmArr (x2 : IVec S256x32x2 32) : FVec Ideal S256x32 .f32 :=
  uitofp .f32 (noti (andi
    (cmpi .eq (txArr x2) (broadcastInDim S256x32 ![] bcast_S_S256x32 (constantI S_ 32 0#32)))
    (cmpi .eq (tyArr x2) (broadcastInDim S256x32 ![] bcast_S_S256x32 (constantI S_ 32 0#32)))))

variable (m : (ℓ : Loc nD τ sig) → Buf (Elt Ideal) ℓ)

/-- The first window's array is the x probabilities, flattened. -/
theorem V_v0 (c : Dev nD) : (V m c main_v0 : S8192x1920.Idx → EReal)
    = shapeCast S8192x1920 (m ((c : Thread nD τ).loc main_arg0)) shapeCasts_S256x32x1920_S8192x1920 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The second window's array is the y probabilities, flattened. -/
theorem V_v1 (c : Dev nD) : (V m c main_v1 : S8192x1080.Idx → EReal)
    = shapeCast S8192x1080 (m ((c : Thread nD τ).loc main_arg1)) shapeCasts_S256x32x1080_S8192x1080 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

set_option maxHeartbeats 4000000 in
/-- The third window's array is the clamped x targets as a column. -/
theorem V_v15 (c : Dev nD) : (V m c main_v15 : S8192x1.Idx → BitVec 32)
    = shapeCast S8192x1 (txArr (m ((c : Thread nD τ).loc main_arg2))) shapeCasts_S256x32_S8192x1 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

set_option maxHeartbeats 4000000 in
/-- The fourth window's array is the clamped y targets as a column. -/
theorem V_v16 (c : Dev nD) : (V m c main_v16 : S8192x1.Idx → BitVec 32)
    = shapeCast S8192x1 (tyArr (m ((c : Thread nD τ).loc main_arg2))) shapeCasts_S256x32_S8192x1 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

set_option maxHeartbeats 8000000 in
/-- The fifth window's array is the mask as a column. -/
theorem V_v17 (c : Dev nD) : (V m c main_v17 : S8192x1.Idx → EReal)
    = shapeCast S8192x1 (vmArr (m ((c : Thread nD τ).loc main_arg2))) shapeCasts_S256x32_S8192x1 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

/-! ## The host arrays at an index -/

section AtIndex

/-- A column of per-pair values: row R is pair (R / 32, R % 32). -/
theorem col_apply {α : Type} (f : S256x32.Idx → α) (R : Fin 8192) :
    shapeCast S8192x1 f shapeCasts_S256x32_S8192x1 (ix2 R (0 : Fin 1)) = f (ix2 (Cert.Spec.pairB R) (Cert.Spec.pairN R)) := by
  refine shapeCast_apply f shapeCasts_S256x32_S8192x1 (ix2 R (0 : Fin 1)) (ix2 (Cert.Spec.pairB R) (Cert.Spec.pairN R)) ?_
  rw [Shape.rowMajor_val_two, Shape.rowMajor_val_two]
  show R.val / 32 * 32 + R.val % 32 = R.val * 1 + 0
  omega

/-- The flattened x probabilities: row R is the row of pair (R / 32, R % 32). -/
theorem flatX_apply {α : Type} (x : S256x32x1920.Idx → α) (R : Fin 8192) (j : Fin 1920) :
    shapeCast S8192x1920 x shapeCasts_S256x32x1920_S8192x1920 (ix2 R j) = x (ix3 (Cert.Spec.pairB R) (Cert.Spec.pairN R) j) := by
  refine shapeCast_apply x shapeCasts_S256x32x1920_S8192x1920 (ix2 R j) (ix3 (Cert.Spec.pairB R) (Cert.Spec.pairN R) j) ?_
  rw [Shape.rowMajor_val_three, Shape.rowMajor_val_two]
  show (R.val / 32 * 32 + R.val % 32) * 1920 + j.val = R.val * 1920 + j.val
  have : R.val / 32 * 32 + R.val % 32 = R.val := by omega
  rw [this]

/-- The flattened y probabilities: row R is the row of pair (R / 32, R % 32). -/
theorem flatY_apply {α : Type} (x : S256x32x1080.Idx → α) (R : Fin 8192) (j : Fin 1080) :
    shapeCast S8192x1080 x shapeCasts_S256x32x1080_S8192x1080 (ix2 R j) = x (ix3 (Cert.Spec.pairB R) (Cert.Spec.pairN R) j) := by
  refine shapeCast_apply x shapeCasts_S256x32x1080_S8192x1080 (ix2 R j) (ix3 (Cert.Spec.pairB R) (Cert.Spec.pairN R) j) ?_
  rw [Shape.rowMajor_val_three, Shape.rowMajor_val_two]
  show (R.val / 32 * 32 + R.val % 32) * 1080 + j.val = R.val * 1080 + j.val
  have : R.val / 32 * 32 + R.val % 32 = R.val := by omega
  rw [this]

/-- The clamped x target of a pair is the specification's. -/
theorem txArr_apply (x2 : IVec S256x32x2 32) (b : Fin 256) (n : Fin 32) :
    txArr x2 (ix2 b n) = Cert.Spec.tX x2 b n := by
  show IntOp.minsi 1919#32 (IntOp.maxsi 0#32 (shapeCast S256x32 (extractStridedSlice S256x32x1 ![0, 0, 0] x2 slices_S256x32x2_S256x32x1_0_0_0) shapeCasts_S256x32x1_S256x32 (ix2 b n))) = _
  rw [shapeCast_apply _ shapeCasts_S256x32x1_S256x32 (ix2 b n) (ix3 b n (0 : Fin 1)) (by
        rw [Shape.rowMajor_val_three, Shape.rowMajor_val_two]; show (b.val * 32 + n.val) * 1 + 0 = b.val * 32 + n.val; omega),
      extractStridedSlice_apply ![0, 0, 0] x2 slices_S256x32x2_S256x32x1_0_0_0 (ix3 b n (0 : Fin 1)) (ix3 b n (0 : Fin 2)) (fun a => match a with
        | ⟨0, _⟩ => by show b.val = 0 + b.val; omega
        | ⟨1, _⟩ => by show n.val = 0 + n.val; omega
        | ⟨2, _⟩ => by show (0 : ℕ) = 0 + 0; omega)]
  rfl

/-- The clamped y target of a pair is the specification's. -/
theorem tyArr_apply (x2 : IVec S256x32x2 32) (b : Fin 256) (n : Fin 32) :
    tyArr x2 (ix2 b n) = Cert.Spec.tY x2 b n := by
  show IntOp.minsi 1079#32 (IntOp.maxsi 0#32 (shapeCast S256x32 (extractStridedSlice S256x32x1 ![0, 0, 1] x2 slices_S256x32x2_S256x32x1_0_0_1) shapeCasts_S256x32x1_S256x32 (ix2 b n))) = _
  rw [shapeCast_apply _ shapeCasts_S256x32x1_S256x32 (ix2 b n) (ix3 b n (0 : Fin 1)) (by
        rw [Shape.rowMajor_val_three, Shape.rowMajor_val_two]; show (b.val * 32 + n.val) * 1 + 0 = b.val * 32 + n.val; omega),
      extractStridedSlice_apply ![0, 0, 1] x2 slices_S256x32x2_S256x32x1_0_0_1 (ix3 b n (0 : Fin 1)) (ix3 b n (1 : Fin 2)) (fun a => match a with
        | ⟨0, _⟩ => by show b.val = 0 + b.val; omega
        | ⟨1, _⟩ => by show n.val = 0 + n.val; omega
        | ⟨2, _⟩ => by show (1 : ℕ) = 1 + 0; omega)]
  rfl

/-- The mask of a pair is the specification's. -/
theorem vmArr_apply (x2 : IVec S256x32x2 32) (b : Fin 256) (n : Fin 32) :
    vmArr x2 (ix2 b n) = Cert.Spec.mk x2 b n := by
  show FloatOps.uitofp (F := Ideal) .f32 (~~~ (IntOp.andi (IntOp.cmpi .eq (txArr x2 (ix2 b n)) 0#32) (IntOp.cmpi .eq (tyArr x2 (ix2 b n)) 0#32))) = _
  rw [txArr_apply, tyArr_apply]
  rfl

end AtIndex

end Cert.KerArrays

end
-- ==== Proof.KerPay.lean ====
/-
  The kernel body's stored values read at an index, over variables for the loaded blocks.

  A block holds 512 rows. For row r the body picks the row's entry at its target by summing the row against the one-hot
  mask "column = target", forms the row's loss from that entry and the row's sum of clamped complement logarithms,
  multiplies by the row's mask entry, and sums the 512 products; the sum is stored in lane 0 of a 128-lane block whose
  other lanes hold 0.
-/
import proofs.«408772_j8778913153573_3_alg».proof.Proof.Gen.KernelIdeal.Skeleton
import proofs.«408772_j8778913153573_3_alg».proof.Proof.Spec
import proofs.«408772_j8778913153573_3_alg».proof.Proof.Sums
import Idealize.ShloMosaic.Lib.Pipeline.Value
import Idealize.ShloMosaic.Lib.ValueIdx
import Idealize.ShloMosaic.PureOps.Ideal.Laws

noncomputable section

open scoped BigOperators

namespace Cert.KerPay

open Cert.KernelIdeal Cert.KernelIdeal.Gen Idealize.ShloMosaic Idealize.ShloMosaic.ValueIdx

/-! ## The two reductions -/

/-- A row sum kept as a column: entry (r, 0) is the sum of row r. -/
theorem rowsum_apply {L : ℕ} (h : (⟨2, ![512, L]⟩ : Shape).Reduces [1] ⟨1, ![512]⟩)
    (hc : (⟨1, ![512]⟩ : Shape).ShapeCasts ⟨2, ![512, 1]⟩) (src : FVec Ideal ⟨2, ![512, L]⟩ .f32) (r : Fin 512) :
    shapeCast ⟨2, ![512, 1]⟩ (multiReduction .add [1] ⟨1, ![512]⟩ src 0x00000000#32 h (.inl rfl) rfl) hc (ix2 r (0 : Fin 1))
      = ∑ k : Fin L, src (ix2 r k) := by
  rw [shapeCast_apply _ hc (ix2 r (0 : Fin 1)) (ix1 r) (by
    rw [Shape.rowMajor_val_one, Shape.rowMajor_val_two]; show r.val = r.val * 1 + 0; omega)]
  refine (Ideal.multiReduction_add_single src _ h _ _ (ix1 r)).trans ?_
  show ∑ k : Fin L, src (h.lift (ix1 r) k) = _
  refine Finset.sum_congr rfl fun k _ => congrArg src ?_
  funext a
  match a with
  | ⟨0, _⟩ => exact Fin.ext rfl
  | ⟨1, _⟩ => exact Fin.ext rfl

/-- A column sum kept as a 1 × 1 array: its entry is the sum of the column. -/
theorem colsum_apply (h : (⟨2, ![512, 1]⟩ : Shape).Reduces [0] ⟨1, ![1]⟩)
    (hc : (⟨1, ![1]⟩ : Shape).ShapeCasts ⟨2, ![1, 1]⟩) (src : FVec Ideal ⟨2, ![512, 1]⟩ .f32) :
    shapeCast ⟨2, ![1, 1]⟩ (multiReduction .add [0] ⟨1, ![1]⟩ src 0x00000000#32 h (.inl rfl) rfl) hc (ix2 (0 : Fin 1) (0 : Fin 1))
      = ∑ r : Fin 512, src (ix2 r (0 : Fin 1)) := by
  rw [shapeCast_apply _ hc (ix2 (0 : Fin 1) (0 : Fin 1)) (ix1 (0 : Fin 1)) (by
    rw [Shape.rowMajor_val_one, Shape.rowMajor_val_two]; rfl)]
  refine (Ideal.multiReduction_add_single src _ h _ _ (ix1 (0 : Fin 1))).trans ?_
  show ∑ k : Fin 512, src (h.lift (ix1 (0 : Fin 1)) k) = _
  refine Finset.sum_congr rfl fun k _ => congrArg src ?_
  funext a
  match a with
  | ⟨0, _⟩ => exact Fin.ext rfl
  | ⟨1, _⟩ => exact Fin.ext rfl

/-! ## A value kept in lane 0 of a 128-lane block -/

/-- The lane test "lane number = 0", at lane l. -/
theorem lane0_test (l : Fin 128) :
    cmpi .eq (iota .tc S1x128 32 [1] iota_S1x128_d1_w32) (broadcast S1x128 0#32) (ix2 (0 : Fin 1) l)
      = if l.val = 0 then 1#1 else 0#1 := by
  show IntOp.cmpi .eq (iota .tc S1x128 32 [1] iota_S1x128_d1_w32 (ix2 (0 : Fin 1) l)) 0#32 = _
  rw [iota_single_apply]
  show IntOp.cmpi .eq (BitVec.ofNat 32 l.val) 0#32 = _
  by_cases hl : l.val = 0
  · rw [if_pos hl, hl]; rfl
  · rw [if_neg hl]
    apply eq_zero_of_ne_one
    rw [StableHlo.Predicate.cmpi_eq_iff]
    intro he
    apply hl
    have h2 := congrArg BitVec.toNat he
    simp only [BitVec.toNat_ofNat] at h2
    have := l.isLt
    omega

/-- A 1 × 1 value spread over the lanes reads that value at every lane. -/
theorem spread_apply (v : FVec Ideal S1x1 .f32) (l : Fin 128) :
    broadcastTo S1x128 v broadcasts_S1x1_S1x128 (ix2 (0 : Fin 1) l) = v (ix2 (0 : Fin 1) (0 : Fin 1)) :=
  broadcastTo_apply v broadcasts_S1x1_S1x128 (ix2 (0 : Fin 1) l) (ix2 (0 : Fin 1) (0 : Fin 1)) (fun a => match a with
    | ⟨0, _⟩ => rfl
    | ⟨1, _⟩ => rfl)

/-- The y total's stored block: the value in lane 0, zeros elsewhere. -/
theorem pay1_apply (v71 : FVec Ideal S1x1 .f32) (l : Fin 128) :
    k0_pay1 v71 (ix2 (0 : Fin 1) l) = if l.val = 0 then v71 (ix2 (0 : Fin 1) (0 : Fin 1)) else 0 := by
  unfold k0_pay1
  simp only [shapeCast_self]
  show Scalar.select (cmpi .eq (iota .tc S1x128 32 [1] iota_S1x128_d1_w32) (broadcast S1x128 0#32) (ix2 (0 : Fin 1) l))
    (broadcastTo S1x128 v71 broadcasts_S1x1_S1x128 (ix2 (0 : Fin 1) l)) (Ideal.ofBits .f32 0x00000000#32) = _
  rw [lane0_test, spread_apply, Ideal.ofBits_zero_f32]
  by_cases hl : l.val = 0
  · rw [if_pos hl, if_pos hl, select_one]
  · rw [if_neg hl, if_neg hl, select_zero]

/-- The count's stored block: the value in lane 0, zeros elsewhere. -/
theorem pay2_apply (v73 : FVec Ideal S1x1 .f32) (l : Fin 128) :
    k0_pay2 v73 (ix2 (0 : Fin 1) l) = if l.val = 0 then v73 (ix2 (0 : Fin 1) (0 : Fin 1)) else 0 := by
  unfold k0_pay2
  simp only [shapeCast_self]
  show Scalar.select (cmpi .eq (iota .tc S1x128 32 [1] iota_S1x128_d1_w32) (broadcast S1x128 0#32) (ix2 (0 : Fin 1) l))
    (broadcastTo S1x128 v73 broadcasts_S1x1_S1x128 (ix2 (0 : Fin 1) l)) (Ideal.ofBits .f32 0x00000000#32) = _
  rw [lane0_test, spread_apply, Ideal.ofBits_zero_f32]
  by_cases hl : l.val = 0
  · rw [if_pos hl, if_pos hl, select_one]
  · rw [if_neg hl, if_neg hl, select_zero]

/-- The block's mask column summed. -/
theorem pay8_apply (v9 : FVec Ideal S512x1 .f32) :
    k0_pay8 v9 (ix2 (0 : Fin 1) (0 : Fin 1)) = ∑ r : Fin 512, v9 (ix2 r (0 : Fin 1)) := by
  unfold k0_pay8
  exact colsum_apply reduces_S512x1_S1 shapeCasts_S1_S1x1 v9

/-- The x total's stored block: the sum over the block's rows of loss times mask in lane 0, zeros elsewhere. -/
theorem pay9_apply (v9 v37 : FVec Ideal S512x1 .f32) (l : Fin 128) :
    k0_pay9 v9 v37 (ix2 (0 : Fin 1) l)
      = if l.val = 0 then ∑ r : Fin 512, v37 (ix2 r (0 : Fin 1)) * v9 (ix2 r (0 : Fin 1)) else 0 := by
  unfold k0_pay9
  simp only [shapeCast_self]
  show Scalar.select (cmpi .eq (iota .tc S1x128 32 [1] iota_S1x128_d1_w32) (broadcast S1x128 0#32) (ix2 (0 : Fin 1) l))
    (broadcastTo S1x128 (shapeCast S1x1 (multiReduction .add [0] S1 (mulf v37 v9) 0x00000000#32 reduces_S512x1_S1 (.inl rfl) rfl) shapeCasts_S1_S1x1)
      broadcasts_S1x1_S1x128 (ix2 (0 : Fin 1) l)) (Ideal.ofBits .f32 0x00000000#32) = _
  rw [lane0_test, spread_apply, Ideal.ofBits_zero_f32, colsum_apply reduces_S512x1_S1 shapeCasts_S1_S1x1 (mulf v37 v9)]
  by_cases hl : l.val = 0
  · rw [if_pos hl, if_pos hl, select_one]; rfl
  · rw [if_neg hl, if_neg hl, select_zero]

/-! ## The rows' losses -/

/-- The x-loss of row r of a block, when the row's target word is a column number: the specification's row loss of
    the row and its entry at the target. -/
theorem pay6_apply (x0 : Vec Ideal S512x1920 .f32) (x2 : Vec Ideal S512x1 .i32) (r : Fin 512)
    (ht : (x2 (ix2 r (0 : Fin 1))).toNat < 1920) :
    k0_pay6 x0 x2 (ix2 r (0 : Fin 1))
      = Cert.Spec.rowLoss (Ideal.ofBits .f32 0x44F00000#32) (fun k : Fin 1920 => x0 (ix2 r k))
          (x0 (ix2 r ⟨(x2 (ix2 r (0 : Fin 1))).toNat, ht⟩)) := by
  unfold k0_pay6
  simp only [shapeCast_self]
  simp only [divf, subf, maximumf, log, log1p, broadcast]
  rw [rowsum_apply, rowsum_apply]
  have hsel : ∀ k : Fin 1920, select (cmpi CmpIPredicate.eq (iota Kind.tc S512x1920 32 [1] iota_S512x1920_d1_w32)
      (broadcastTo S512x1920 x2 broadcasts_S512x1_S512x1920)) x0 (broadcast S512x1920 (FloatOps.ofBits (F := Ideal) FTy.f32 0#32)) (ix2 r k)
      = Scalar.select (IntOp.cmpi .eq (BitVec.ofNat 32 k.val) (x2 (ix2 r (0 : Fin 1)))) (x0 (ix2 r k)) (0 : EReal) := by
    intro k
    show Scalar.select (IntOp.cmpi .eq (iota Kind.tc S512x1920 32 [1] iota_S512x1920_d1_w32 (ix2 r k)) (broadcastTo S512x1920 x2 broadcasts_S512x1_S512x1920 (ix2 r k))) (x0 (ix2 r k)) (Ideal.ofBits .f32 0#32) = _
    rw [iota_single_apply, broadcastTo_apply x2 broadcasts_S512x1_S512x1920 (ix2 r k) (ix2 r (0 : Fin 1)) (fun a => match a with
      | ⟨0, _⟩ => rfl
      | ⟨1, _⟩ => rfl), Ideal.ofBits_zero_f32]
  simp only [hsel]
  rw [Cert.Sums.onehot_sum (by norm_num) (fun k : Fin 1920 => x0 (ix2 r k)) (x2 (ix2 r (0 : Fin 1))) ht]
  simp only [maximumf, log1p, subf, broadcast]
  unfold Cert.Spec.rowLoss Cert.Spec.lg Cert.Spec.lg1 Cert.Spec.cLow
  simp only [Ideal.divf_def, Ideal.subf_def, Ideal.maximumf_def, Ideal.log_def, Ideal.log1p_def, Ideal.ofBits_def,
    Ideal.ofBits_zero_f32, zero_sub, zero_add]

/-- The y total of a block before it is spread over the lanes: the sum over the block's rows of the row's y-loss
    times its mask entry, when every row's target word is a column number. -/
theorem pay7_apply (v3 : FVec Ideal S512x1080 .f32) (v7 : IVec S512x1 32) (v9 : FVec Ideal S512x1 .f32)
    (ht : ∀ r : Fin 512, (v7 (ix2 r (0 : Fin 1))).toNat < 1080) :
    k0_pay7 v3 v7 v9 (iota .tc S512x1080 32 [1] iota_S512x1080_d1_w32) (ix2 (0 : Fin 1) (0 : Fin 1))
      = ∑ r : Fin 512, Cert.Spec.rowLoss (Ideal.ofBits .f32 0x44870000#32) (fun k : Fin 1080 => v3 (ix2 r k))
          (v3 (ix2 r ⟨(v7 (ix2 r (0 : Fin 1))).toNat, ht r⟩)) * v9 (ix2 r (0 : Fin 1)) := by
  unfold k0_pay7
  rw [colsum_apply]
  refine Finset.sum_congr rfl fun r _ => ?_
  simp only [mulf, divf, subf, maximumf, log, log1p, broadcast]
  rw [rowsum_apply, rowsum_apply]
  have hsel : ∀ k : Fin 1080, select (cmpi CmpIPredicate.eq (iota Kind.tc S512x1080 32 [1] iota_S512x1080_d1_w32)
      (broadcastTo S512x1080 v7 broadcasts_S512x1_S512x1080)) v3 (broadcast S512x1080 (FloatOps.ofBits (F := Ideal) FTy.f32 0#32)) (ix2 r k)
      = Scalar.select (IntOp.cmpi .eq (BitVec.ofNat 32 k.val) (v7 (ix2 r (0 : Fin 1)))) (v3 (ix2 r k)) (0 : EReal) := by
    intro k
    show Scalar.select (IntOp.cmpi .eq (iota Kind.tc S512x1080 32 [1] iota_S512x1080_d1_w32 (ix2 r k)) (broadcastTo S512x1080 v7 broadcasts_S512x1_S512x1080 (ix2 r k))) (v3 (ix2 r k)) (Ideal.ofBits .f32 0#32) = _
    rw [iota_single_apply, broadcastTo_apply v7 broadcasts_S512x1_S512x1080 (ix2 r k) (ix2 r (0 : Fin 1)) (fun a => match a with
      | ⟨0, _⟩ => rfl
      | ⟨1, _⟩ => rfl), Ideal.ofBits_zero_f32]
  simp only [hsel]
  rw [Cert.Sums.onehot_sum (by norm_num) (fun k : Fin 1080 => v3 (ix2 r k)) (v7 (ix2 r (0 : Fin 1))) (ht r)]
  simp only [maximumf, log1p, subf, broadcast]
  unfold Cert.Spec.rowLoss Cert.Spec.lg Cert.Spec.lg1 Cert.Spec.cLow
  simp only [Ideal.mulf_def, Ideal.divf_def, Ideal.subf_def, Ideal.maximumf_def, Ideal.log_def, Ideal.log1p_def, Ideal.ofBits_def,
    Ideal.ofBits_zero_f32, zero_sub, zero_add]

end Cert.KerPay

end
-- ==== Proof.KerOut.lean ====
/-
  The three lane arrays the kernel leaves: 2048 lanes in sixteen groups of 128, group T holding in its lane 0 the sum,
  over the 512 rows of tile T, of the masked x-loss (first array), the masked y-loss (second) or the mask (third) of
  the row's pair, and zeros in its other lanes.
-/
import proofs.«408772_j8778913153573_3_alg».proof.Proof.Gen.KernelIdeal.Frame
import proofs.«408772_j8778913153573_3_alg».proof.Proof.KerArrays
import proofs.«408772_j8778913153573_3_alg».proof.Proof.KerPay
import proofs.«408772_j8778913153573_3_alg».proof.Proof.Sums
import proofs.«408772_j8778913153573_3_alg».proof.Proof.Spec
import Idealize.ShloMosaic.Lib.Pipeline.Value
import Idealize.ShloMosaic.Lib.ValueIdx

set_option maxRecDepth 16384

noncomputable section

open scoped BigOperators

namespace Cert.KerOut

open Cert.KernelIdeal Cert.KernelIdeal.Gen Idealize.ShloMosaic Idealize.ShloMosaic.TcCoe Idealize.SL.Sem
open Idealize.ShloMosaic.ValueIdx
open Idealize.ShloMosaic.Pipeline (Dat)

/-! ## The lane arrays -/

/-- Row r of tile T among the 8192 rows. -/
def rowIn (T : Fin 16) (r : Fin 512) : Fin 8192 := ⟨512 * T.val + r.val, by have := T.isLt; have := r.isLt; omega⟩

/-- One value per tile, laid out over 2048 lanes: tile T's value in lane 128 · T, zeros elsewhere. -/
def laneArr (P : Fin 16 → EReal) : S1x2048.Idx → EReal :=
  fun i => if (i 1).val % 128 = 0 then P ⟨(i 1).val / 128, by have h : (i 1).val < 2048 := (i 1).isLt; omega⟩ else 0

/-- Tile T's masked x-loss, masked y-loss, and mask, summed over its rows. -/
def tileX (x0 : Cert.Spec.ArrX) (x2 : Cert.Spec.ArrT) (T : Fin 16) : EReal :=
  ∑ r : Fin 512, Cert.Spec.wX x0 x2 (Cert.Spec.pairB (rowIn T r)) (Cert.Spec.pairN (rowIn T r))
def tileY (x1 : Cert.Spec.ArrY) (x2 : Cert.Spec.ArrT) (T : Fin 16) : EReal :=
  ∑ r : Fin 512, Cert.Spec.wY x1 x2 (Cert.Spec.pairB (rowIn T r)) (Cert.Spec.pairN (rowIn T r))
def tileC (x2 : Cert.Spec.ArrT) (T : Fin 16) : EReal :=
  ∑ r : Fin 512, Cert.Spec.mk x2 (Cert.Spec.pairB (rowIn T r)) (Cert.Spec.pairN (rowIn T r))

variable (m : (ℓ : Loc nD τ sig) → Buf (Elt Ideal) ℓ)

/-- The three argument arrays of core c. -/
abbrev argX (c : Dev nD) : Cert.Spec.ArrX := m ((c : Thread nD τ).loc main_arg0)
abbrev argY (c : Dev nD) : Cert.Spec.ArrY := m ((c : Thread nD τ).loc main_arg1)
abbrev argT (c : Dev nD) : Cert.Spec.ArrT := m ((c : Thread nD τ).loc main_arg2)

/-! ## The windows' blocks -/

theorem zero_offsets : (![0, 0] : Fin 2 → Nat) = fun _ => 0 := funext fun a => by fin_cases a <;> rfl

/-- The printed index maps, decided over the grid: input windows step down the rows, output windows along the lanes. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

/-- The five input blocks of point t, at their literal types. -/
abbrev xblk (c : Dev nD) (t : Fin cfg0.N) : Vec Ideal S512x1920 .f32 := iblk m c 0 t
abbrev yblk (c : Dev nD) (t : Fin cfg0.N) : Vec Ideal S512x1080 .f32 := iblk m c 1 t
abbrev txblk (c : Dev nD) (t : Fin cfg0.N) : Vec Ideal S512x1 .i32 := iblk m c 2 t
abbrev tyblk (c : Dev nD) (t : Fin cfg0.N) : Vec Ideal S512x1 .i32 := iblk m c 3 t
abbrev vmblk (c : Dev nD) (t : Fin cfg0.N) : Vec Ideal S512x1 .f32 := iblk m c 4 t

/-- Point t as a tile number. -/
def tileOf (t : Fin cfg0.N) : Fin 16 := ⟨t.val, Nat.lt_of_lt_of_eq t.isLt N_0⟩

/-- Row r of point t's x block is the x row of the pair of row r of tile t. -/
theorem xblk_apply (c : Dev nD) (t : Fin cfg0.N) (r : Fin 512) (k : Fin 1920) :
    xblk m c t (ix2 r k) = argX m c (ix3 (Cert.Spec.pairB (rowIn (tileOf t) r)) (Cert.Spec.pairN (rowIn (tileOf t) r)) k) := by
  show V m c main_v0 (((cfg0.win 0).blk t).view.emb (ix2 r k)) = _
  have he : ((cfg0.win 0).blk t).view.emb (ix2 r k) = ix2 (rowIn (tileOf t) r) k := by
    have e := idx_facts t
    funext a; apply Fin.ext
    match a with
    | ⟨0, _⟩ => show win0_0.index t (0 : Fin 2) * 512 + 1 * r.val = 512 * t.val + r.val; omega
    | ⟨1, _⟩ => show win0_0.index t (1 : Fin 2) * 1920 + 1 * k.val = k.val; omega
  rw [he, Cert.KerArrays.V_v0, Cert.KerArrays.flatX_apply]

/-- Row r of point t's y block is the y row of the pair of row r of tile t. -/
theorem yblk_apply (c : Dev nD) (t : Fin cfg0.N) (r : Fin 512) (k : Fin 1080) :
    yblk m c t (ix2 r k) = argY m c (ix3 (Cert.Spec.pairB (rowIn (tileOf t) r)) (Cert.Spec.pairN (rowIn (tileOf t) r)) k) := by
  show V m c main_v1 (((cfg0.win 1).blk t).view.emb (ix2 r k)) = _
  have he : ((cfg0.win 1).blk t).view.emb (ix2 r k) = ix2 (rowIn (tileOf t) r) k := by
    have e := idx_facts t
    funext a; apply Fin.ext
    match a with
    | ⟨0, _⟩ => show win0_1.index t (0 : Fin 2) * 512 + 1 * r.val = 512 * t.val + r.val; omega
    | ⟨1, _⟩ => show win0_1.index t (1 : Fin 2) * 1080 + 1 * k.val = k.val; omega
  rw [he, Cert.KerArrays.V_v1, Cert.KerArrays.flatY_apply]

/-- Row r of point t's x-target block is the clamped x target of the pair of row r of tile t. -/
theorem txblk_apply (c : Dev nD) (t : Fin cfg0.N) (r : Fin 512) :
    txblk m c t (ix2 r (0 : Fin 1)) = Cert.Spec.tX (argT m c) (Cert.Spec.pairB (rowIn (tileOf t) r)) (Cert.Spec.pairN (rowIn (tileOf t) r)) := by
  show V m c main_v15 (((cfg0.win 2).blk t).view.emb (ix2 r (0 : Fin 1))) = _
  have he : ((cfg0.win 2).blk t).view.emb (ix2 r (0 : Fin 1)) = ix2 (rowIn (tileOf t) r) (0 : Fin 1) := by
    have e := idx_facts t
    funext a; apply Fin.ext
    match a with
    | ⟨0, _⟩ => show win0_2.index t (0 : Fin 2) * 512 + 1 * r.val = 512 * t.val + r.val; omega
    | ⟨1, _⟩ => show win0_2.index t (1 : Fin 2) * 1 + 1 * 0 = 0; omega
  rw [he, Cert.KerArrays.V_v15, Cert.KerArrays.col_apply, Cert.KerArrays.txArr_apply]

/-- Row r of point t's y-target block is the clamped y target of the pair of row r of tile t. -/
theorem tyblk_apply (c : Dev nD) (t : Fin cfg0.N) (r : Fin 512) :
    tyblk m c t (ix2 r (0 : Fin 1)) = Cert.Spec.tY (argT m c) (Cert.Spec.pairB (rowIn (tileOf t) r)) (Cert.Spec.pairN (rowIn (tileOf t) r)) := by
  show V m c main_v16 (((cfg0.win 3).blk t).view.emb (ix2 r (0 : Fin 1))) = _
  have he : ((cfg0.win 3).blk t).view.emb (ix2 r (0 : Fin 1)) = ix2 (rowIn (tileOf t) r) (0 : Fin 1) := by
    have e := idx_facts t
    funext a; apply Fin.ext
    match a with
    | ⟨0, _⟩ => show win0_3.index t (0 : Fin 2) * 512 + 1 * r.val = 512 * t.val + r.val; omega
    | ⟨1, _⟩ => show win0_3.index t (1 : Fin 2) * 1 + 1 * 0 = 0; omega
  rw [he, Cert.KerArrays.V_v16, Cert.KerArrays.col_apply, Cert.KerArrays.tyArr_apply]

/-- Row r of point t's mask block is the mask of the pair of row r of tile t. -/
theorem vmblk_apply (c : Dev nD) (t : Fin cfg0.N) (r : Fin 512) :
    vmblk m c t (ix2 r (0 : Fin 1)) = Cert.Spec.mk (argT m c) (Cert.Spec.pairB (rowIn (tileOf t) r)) (Cert.Spec.pairN (rowIn (tileOf t) r)) := by
  show V m c main_v17 (((cfg0.win 4).blk t).view.emb (ix2 r (0 : Fin 1))) = _
  have he : ((cfg0.win 4).blk t).view.emb (ix2 r (0 : Fin 1)) = ix2 (rowIn (tileOf t) r) (0 : Fin 1) := by
    have e := idx_facts t
    funext a; apply Fin.ext
    match a with
    | ⟨0, _⟩ => show win0_4.index t (0 : Fin 2) * 512 + 1 * r.val = 512 * t.val + r.val; omega
    | ⟨1, _⟩ => show win0_4.index t (1 : Fin 2) * 1 + 1 * 0 = 0; omega
  rw [he, Cert.KerArrays.V_v17, Cert.KerArrays.col_apply, Cert.KerArrays.vmArr_apply]

/-! ## The rows of a tile -/

/-- The clamped x target of a row is a column number of the x row. -/
theorem txblk_lt (c : Dev nD) (t : Fin cfg0.N) (r : Fin 512) : (txblk m c t (ix2 r (0 : Fin 1))).toNat < 1920 := by
  rw [txblk_apply]
  have h := Cert.Sums.clampW_toNat_le 1919#32 (argT m c (ix3 (Cert.Spec.pairB (rowIn (tileOf t) r)) (Cert.Spec.pairN (rowIn (tileOf t) r)) (0 : Fin 2))) (by decide)
  have h9 : (1919#32 : BitVec 32).toNat = 1919 := by decide
  unfold Cert.Spec.tX
  omega

/-- The clamped y target of a row is a column number of the y row. -/
theorem tyblk_lt (c : Dev nD) (t : Fin cfg0.N) (r : Fin 512) : (tyblk m c t (ix2 r (0 : Fin 1))).toNat < 1080 := by
  rw [tyblk_apply]
  have h := Cert.Sums.clampW_toNat_le 1079#32 (argT m c (ix3 (Cert.Spec.pairB (rowIn (tileOf t) r)) (Cert.Spec.pairN (rowIn (tileOf t) r)) (1 : Fin 2))) (by decide)
  have h9 : (1079#32 : BitVec 32).toNat = 1079 := by decide
  unfold Cert.Spec.tY
  omega

/-- Row r of tile t: the body's x-loss times the mask entry is the pair's masked x-loss. -/
theorem rowX (c : Dev nD) (t : Fin cfg0.N) (r : Fin 512) :
    k0_pay6 (xblk m c t) (txblk m c t) (ix2 r (0 : Fin 1)) * k0_pay5 (vmblk m c t) (ix2 r (0 : Fin 1))
      = Cert.Spec.wX (argX m c) (argT m c) (Cert.Spec.pairB (rowIn (tileOf t) r)) (Cert.Spec.pairN (rowIn (tileOf t) r)) := by
  rw [Cert.KerPay.pay6_apply (xblk m c t) (txblk m c t) r (txblk_lt m c t r)]
  have hv : k0_pay5 (vmblk m c t) (ix2 r (0 : Fin 1)) = vmblk m c t (ix2 r (0 : Fin 1)) := by
    unfold k0_pay5; rw [shapeCast_self]
  have hi : (⟨(txblk m c t (ix2 r (0 : Fin 1))).toNat, txblk_lt m c t r⟩ : Fin 1920)
      = Cert.Spec.tIdx 1920 (by decide) (Cert.Spec.tX (argT m c) (Cert.Spec.pairB (rowIn (tileOf t) r)) (Cert.Spec.pairN (rowIn (tileOf t) r))) := by
    apply Fin.ext
    show (txblk m c t (ix2 r (0 : Fin 1))).toNat = _
    rw [txblk_apply]
    exact (Cert.Sums.tIdx_clampW 1920 (by decide) (by decide) 1919#32 _ (by decide)).symm
  rw [hv, vmblk_apply, hi]
  simp only [xblk_apply]
  rfl

/-- Row r of tile t: the body's y-loss of the row times the mask entry is the pair's masked y-loss. -/
theorem rowY (c : Dev nD) (t : Fin cfg0.N) (r : Fin 512) (h' : (k0_pay4 (tyblk m c t) (ix2 r (0 : Fin 1))).toNat < 1080) :
    Cert.Spec.rowLoss (Ideal.ofBits .f32 0x44870000#32) (fun k : Fin 1080 => k0_pay3 (yblk m c t) (ix2 r k))
        (k0_pay3 (yblk m c t) (ix2 r ⟨(k0_pay4 (tyblk m c t) (ix2 r (0 : Fin 1))).toNat, h'⟩)) * k0_pay5 (vmblk m c t) (ix2 r (0 : Fin 1))
      = Cert.Spec.wY (argY m c) (argT m c) (Cert.Spec.pairB (rowIn (tileOf t) r)) (Cert.Spec.pairN (rowIn (tileOf t) r)) := by
  have h3 : k0_pay3 (yblk m c t) = yblk m c t := by unfold k0_pay3; rw [shapeCast_self]
  have hv : k0_pay5 (vmblk m c t) (ix2 r (0 : Fin 1)) = vmblk m c t (ix2 r (0 : Fin 1)) := by
    unfold k0_pay5; rw [shapeCast_self]
  have hi : (⟨(k0_pay4 (tyblk m c t) (ix2 r (0 : Fin 1))).toNat, h'⟩ : Fin 1080)
      = Cert.Spec.tIdx 1080 (by decide) (Cert.Spec.tY (argT m c) (Cert.Spec.pairB (rowIn (tileOf t) r)) (Cert.Spec.pairN (rowIn (tileOf t) r))) := by
    apply Fin.ext
    show (k0_pay4 (tyblk m c t) (ix2 r (0 : Fin 1))).toNat = _
    have h4 : k0_pay4 (tyblk m c t) = tyblk m c t := by unfold k0_pay4; rw [shapeCast_self]
    rw [h4, tyblk_apply]
    exact (Cert.Sums.tIdx_clampW 1080 (by decide) (by decide) 1079#32 _ (by decide)).symm
  rw [hv, vmblk_apply, hi, h3]
  simp only [yblk_apply]
  rfl

/-! ## The three output windows -/

/-- What grid point t writes back through output window 5 is block t of the lane array. -/
theorem flushed5_eq (c : Dev nD) (t : Fin cfg0.N) :
    (dats m 0 c).flushed 5 t = ((cfg0.win 5).blk t).view.read (Elt Ideal) (laneArr (tileX (argX m c) (argT m c))) := by
  show (cfg0.win 5).cut (grid0.coords t) ((dats m 0 c).after 5 t) = _
  rw [after0_5]
  unfold out0_5
  rw [View.canon_unit_zero zero_offsets]
  simp only [View.ld_unit_zero (S := S512x1920) zero_offsets, View.ld_unit_zero (S := S512x1080) zero_offsets, View.ld_unit_zero (S := S512x1) zero_offsets]
  funext j
  obtain ⟨p, q, rfl⟩ : ∃ (p : Fin 1) (q : Fin 128), j = ix2 p q := ⟨j 0, j 1, eq_ix2 j⟩
  obtain rfl : p = 0 := Subsingleton.elim _ _
  show k0_pay9 (k0_pay5 (vmblk m c t)) (k0_pay6 (xblk m c t) (txblk m c t)) (ix2 (0 : Fin 1) q) = (laneArr (tileX (argX m c) (argT m c))) (((cfg0.win 5).blk t).view.emb (ix2 (0 : Fin 1) q))
  have ht16 : t.val < 16 := Nat.lt_of_lt_of_eq t.isLt N_0
  have he : ((cfg0.win 5).blk t).view.emb (ix2 (0 : Fin 1) q) = ix2 (0 : Fin 1) (⟨128 * t.val + q.val, by have := q.isLt; omega⟩ : Fin 2048) := by
    have e := idx_facts t
    funext a; apply Fin.ext
    match a with
    | ⟨0, _⟩ => show win0_5.index t (0 : Fin 2) * 1 + 1 * 0 = 0; omega
    | ⟨1, _⟩ => show win0_5.index t (1 : Fin 2) * 128 + 1 * q.val = 128 * t.val + q.val; omega
  rw [he]
  rw [Cert.KerPay.pay9_apply]
  unfold laneArr
  have hT : ∀ h', (⟨(128 * t.val + q.val) / 128, h'⟩ : Fin 16) = tileOf t := fun h' =>
    Fin.ext (by show (128 * t.val + q.val) / 128 = t.val; have := q.isLt; omega)
  by_cases hq : q.val = 0
  · have hmod : (128 * t.val + q.val) % 128 = 0 := by omega
    rw [if_pos hq]
    show _ = (if (128 * t.val + q.val) % 128 = 0 then tileX (argX m c) (argT m c) ⟨(128 * t.val + q.val) / 128, _⟩ else 0)
    rw [if_pos hmod, hT]
    unfold tileX
    exact Finset.sum_congr rfl fun r _ => rowX m c t r
  · have hmod : ¬ (128 * t.val + q.val) % 128 = 0 := by have := q.isLt; omega
    rw [if_neg hq]
    show _ = (if (128 * t.val + q.val) % 128 = 0 then tileX (argX m c) (argT m c) ⟨(128 * t.val + q.val) / 128, _⟩ else 0)
    rw [if_neg hmod]

/-- An index of the lane array is in point t's block of window 5 iff each coordinate is in the block's range. -/
theorem mem_blk5 (t : Fin cfg0.N) (i : S1x2048.Idx) :
    i ∈ ((cfg0.win 5).blk t).view.set ↔ ∀ a : Fin 2, win0_5.index t a * S1x128.size a ≤ (i a).val ∧ (i a).val < win0_5.index t a * S1x128.size a + S1x128.size a := by
  show i ∈ ((View.whole main_v18_0).slice (win0_5.rect t)).set ↔ _
  rw [View.set_slice_whole, Rect.mem_set_unit]
  exact Iff.rfl

/-- Every lane is in the block of the point its 128-lane group names. -/
theorem cover5 (i : S1x2048.Idx) : ∃ t : Fin cfg0.N, (cfg0.win 5).flush t = true ∧ i ∈ ((cfg0.win 5).blk t).view.set := by
  have hi0 : (i 0).val < 1 := (i 0).isLt
  have hi1 : (i 1).val < 2048 := (i 1).isLt
  obtain ⟨T, hTv⟩ : ∃ T : Fin cfg0.N, T.val = (i 1).val / 128 :=
    ⟨⟨(i 1).val / 128, by rw [show cfg0.N = 16 from N_0]; omega⟩, rfl⟩
  refine ⟨T, flush0_5 T, ?_⟩
  rw [mem_blk5]
  have e := idx_facts T
  intro a
  match a with
  | ⟨0, _⟩ => show win0_5.index T (0 : Fin 2) * 1 ≤ (i 0).val ∧ (i 0).val < win0_5.index T (0 : Fin 2) * 1 + 1; omega
  | ⟨1, _⟩ => show win0_5.index T (1 : Fin 2) * 128 ≤ (i 1).val ∧ (i 1).val < win0_5.index T (1 : Fin 2) * 128 + 128; omega

/-- The array behind output window 5 after the run. -/
theorem final5 (c : Dev nD) : (dats m 0 c).arrAt 5 cfg0.N = laneArr (tileX (argX m c) (argT m c)) :=
  (dats m 0 c).arrAt_eq_of_cover 5 (laneArr (tileX (argX m c) (argT m c))) (fun t _ => flushed5_eq m c t) cover5

/-- What grid point t writes back through output window 6 is block t of the lane array. -/
theorem flushed6_eq (c : Dev nD) (t : Fin cfg0.N) :
    (dats m 0 c).flushed 6 t = ((cfg0.win 6).blk t).view.read (Elt Ideal) (laneArr (tileY (argY m c) (argT m c))) := by
  show (cfg0.win 6).cut (grid0.coords t) ((dats m 0 c).after 6 t) = _
  rw [after0_6]
  unfold out0_6
  rw [View.canon_unit_zero zero_offsets]
  simp only [View.ld_unit_zero (S := S512x1920) zero_offsets, View.ld_unit_zero (S := S512x1080) zero_offsets, View.ld_unit_zero (S := S512x1) zero_offsets]
  funext j
  obtain ⟨p, q, rfl⟩ : ∃ (p : Fin 1) (q : Fin 128), j = ix2 p q := ⟨j 0, j 1, eq_ix2 j⟩
  obtain rfl : p = 0 := Subsingleton.elim _ _
  show k0_pay1 (k0_pay7 (k0_pay3 (yblk m c t)) (k0_pay4 (tyblk m c t)) (k0_pay5 (vmblk m c t)) (iota .tc S512x1080 32 [1] iota_S512x1080_d1_w32)) (ix2 (0 : Fin 1) q) = (laneArr (tileY (argY m c) (argT m c))) (((cfg0.win 6).blk t).view.emb (ix2 (0 : Fin 1) q))
  have ht16 : t.val < 16 := Nat.lt_of_lt_of_eq t.isLt N_0
  have he : ((cfg0.win 6).blk t).view.emb (ix2 (0 : Fin 1) q) = ix2 (0 : Fin 1) (⟨128 * t.val + q.val, by have := q.isLt; omega⟩ : Fin 2048) := by
    have e := idx_facts t
    funext a; apply Fin.ext
    match a with
    | ⟨0, _⟩ => show win0_6.index t (0 : Fin 2) * 1 + 1 * 0 = 0; omega
    | ⟨1, _⟩ => show win0_6.index t (1 : Fin 2) * 128 + 1 * q.val = 128 * t.val + q.val; omega
  rw [he]
  rw [Cert.KerPay.pay1_apply]
  unfold laneArr
  have hT : ∀ h', (⟨(128 * t.val + q.val) / 128, h'⟩ : Fin 16) = tileOf t := fun h' =>
    Fin.ext (by show (128 * t.val + q.val) / 128 = t.val; have := q.isLt; omega)
  by_cases hq : q.val = 0
  · have hmod : (128 * t.val + q.val) % 128 = 0 := by omega
    rw [if_pos hq]
    show _ = (if (128 * t.val + q.val) % 128 = 0 then tileY (argY m c) (argT m c) ⟨(128 * t.val + q.val) / 128, _⟩ else 0)
    rw [if_pos hmod, hT]
    have h4 : ∀ r : Fin 512, (k0_pay4 (tyblk m c t) (ix2 r (0 : Fin 1))).toNat < 1080 := fun r => by
      have h : k0_pay4 (tyblk m c t) = tyblk m c t := by unfold k0_pay4; rw [shapeCast_self]
      rw [h]; exact tyblk_lt m c t r
    rw [Cert.KerPay.pay7_apply (k0_pay3 (yblk m c t)) (k0_pay4 (tyblk m c t)) (k0_pay5 (vmblk m c t)) h4]
    unfold tileY
    exact Finset.sum_congr rfl fun r _ => rowY m c t r (h4 r)
  · have hmod : ¬ (128 * t.val + q.val) % 128 = 0 := by have := q.isLt; omega
    rw [if_neg hq]
    show _ = (if (128 * t.val + q.val) % 128 = 0 then tileY (argY m c) (argT m c) ⟨(128 * t.val + q.val) / 128, _⟩ else 0)
    rw [if_neg hmod]

/-- An index of the lane array is in point t's block of window 6 iff each coordinate is in the block's range. -/
theorem mem_blk6 (t : Fin cfg0.N) (i : S1x2048.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v18_1).slice (win0_6.rect t)).set ↔ _
  rw [View.set_slice_whole, Rect.mem_set_unit]
  exact Iff.rfl

/-- Every lane is in the block of the point its 128-lane group names. -/
theorem cover6 (i : S1x2048.Idx) : ∃ t : Fin cfg0.N, (cfg0.win 6).flush t = true ∧ i ∈ ((cfg0.win 6).blk t).view.set := by
  have hi0 : (i 0).val < 1 := (i 0).isLt
  have hi1 : (i 1).val < 2048 := (i 1).isLt
  obtain ⟨T, hTv⟩ : ∃ T : Fin cfg0.N, T.val = (i 1).val / 128 :=
    ⟨⟨(i 1).val / 128, by rw [show cfg0.N = 16 from N_0]; omega⟩, rfl⟩
  refine ⟨T, flush0_6 T, ?_⟩
  rw [mem_blk6]
  have e := idx_facts T
  intro a
  match a with
  | ⟨0, _⟩ => show win0_6.index T (0 : Fin 2) * 1 ≤ (i 0).val ∧ (i 0).val < win0_6.index T (0 : Fin 2) * 1 + 1; omega
  | ⟨1, _⟩ => show win0_6.index T (1 : Fin 2) * 128 ≤ (i 1).val ∧ (i 1).val < win0_6.index T (1 : Fin 2) * 128 + 128; omega

/-- The array behind output window 6 after the run. -/
theorem final6 (c : Dev nD) : (dats m 0 c).arrAt 6 cfg0.N = laneArr (tileY (argY m c) (argT m c)) :=
  (dats m 0 c).arrAt_eq_of_cover 6 (laneArr (tileY (argY m c) (argT m c))) (fun t _ => flushed6_eq m c t) cover6

/-- What grid point t writes back through output window 7 is block t of the lane array. -/
theorem flushed7_eq (c : Dev nD) (t : Fin cfg0.N) :
    (dats m 0 c).flushed 7 t = ((cfg0.win 7).blk t).view.read (Elt Ideal) (laneArr (tileC (argT m c))) := by
  show (cfg0.win 7).cut (grid0.coords t) ((dats m 0 c).after 7 t) = _
  rw [after0_7]
  unfold out0_7
  rw [View.canon_unit_zero zero_offsets]
  simp only [View.ld_unit_zero (S := S512x1920) zero_offsets, View.ld_unit_zero (S := S512x1080) zero_offsets, View.ld_unit_zero (S := S512x1) zero_offsets]
  funext j
  obtain ⟨p, q, rfl⟩ : ∃ (p : Fin 1) (q : Fin 128), j = ix2 p q := ⟨j 0, j 1, eq_ix2 j⟩
  obtain rfl : p = 0 := Subsingleton.elim _ _
  show k0_pay2 (k0_pay8 (k0_pay5 (vmblk m c t))) (ix2 (0 : Fin 1) q) = (laneArr (tileC (argT m c))) (((cfg0.win 7).blk t).view.emb (ix2 (0 : Fin 1) q))
  have ht16 : t.val < 16 := Nat.lt_of_lt_of_eq t.isLt N_0
  have he : ((cfg0.win 7).blk t).view.emb (ix2 (0 : Fin 1) q) = ix2 (0 : Fin 1) (⟨128 * t.val + q.val, by have := q.isLt; omega⟩ : Fin 2048) := by
    have e := idx_facts t
    funext a; apply Fin.ext
    match a with
    | ⟨0, _⟩ => show win0_7.index t (0 : Fin 2) * 1 + 1 * 0 = 0; omega
    | ⟨1, _⟩ => show win0_7.index t (1 : Fin 2) * 128 + 1 * q.val = 128 * t.val + q.val; omega
  rw [he]
  rw [Cert.KerPay.pay2_apply]
  unfold laneArr
  have hT : ∀ h', (⟨(128 * t.val + q.val) / 128, h'⟩ : Fin 16) = tileOf t := fun h' =>
    Fin.ext (by show (128 * t.val + q.val) / 128 = t.val; have := q.isLt; omega)
  by_cases hq : q.val = 0
  · have hmod : (128 * t.val + q.val) % 128 = 0 := by omega
    rw [if_pos hq]
    show _ = (if (128 * t.val + q.val) % 128 = 0 then tileC (argT m c) ⟨(128 * t.val + q.val) / 128, _⟩ else 0)
    rw [if_pos hmod, hT]
    rw [Cert.KerPay.pay8_apply]
    unfold tileC
    refine Finset.sum_congr rfl fun r _ => ?_
    have hv : k0_pay5 (vmblk m c t) (ix2 r (0 : Fin 1)) = vmblk m c t (ix2 r (0 : Fin 1)) := by
      unfold k0_pay5; rw [shapeCast_self]
    rw [hv, vmblk_apply]
  · have hmod : ¬ (128 * t.val + q.val) % 128 = 0 := by have := q.isLt; omega
    rw [if_neg hq]
    show _ = (if (128 * t.val + q.val) % 128 = 0 then tileC (argT m c) ⟨(128 * t.val + q.val) / 128, _⟩ else 0)
    rw [if_neg hmod]

/-- An index of the lane array is in point t's block of window 7 iff each coordinate is in the block's range. -/
theorem mem_blk7 (t : Fin cfg0.N) (i : S1x2048.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v18_2).slice (win0_7.rect t)).set ↔ _
  rw [View.set_slice_whole, Rect.mem_set_unit]
  exact Iff.rfl

/-- Every lane is in the block of the point its 128-lane group names. -/
theorem cover7 (i : S1x2048.Idx) : ∃ t : Fin cfg0.N, (cfg0.win 7).flush t = true ∧ i ∈ ((cfg0.win 7).blk t).view.set := by
  have hi0 : (i 0).val < 1 := (i 0).isLt
  have hi1 : (i 1).val < 2048 := (i 1).isLt
  obtain ⟨T, hTv⟩ : ∃ T : Fin cfg0.N, T.val = (i 1).val / 128 :=
    ⟨⟨(i 1).val / 128, by rw [show cfg0.N = 16 from N_0]; omega⟩, rfl⟩
  refine ⟨T, flush0_7 T, ?_⟩
  rw [mem_blk7]
  have e := idx_facts T
  intro a
  match a with
  | ⟨0, _⟩ => show win0_7.index T (0 : Fin 2) * 1 ≤ (i 0).val ∧ (i 0).val < win0_7.index T (0 : Fin 2) * 1 + 1; omega
  | ⟨1, _⟩ => show win0_7.index T (1 : Fin 2) * 128 ≤ (i 1).val ∧ (i 1).val < win0_7.index T (1 : Fin 2) * 128 + 128; omega

/-- The array behind output window 7 after the run. -/
theorem final7 (c : Dev nD) : (dats m 0 c).arrAt 7 cfg0.N = laneArr (tileC (argT m c)) :=
  (dats m 0 c).arrAt_eq_of_cover 7 (laneArr (tileC (argT m c))) (fun t _ => flushed7_eq m c t) cover7

end Cert.KerOut

end
-- ==== Proof.KerTail.lean ====
/-
  The kernel program's result: the host sums each of the three lane arrays the kernel leaves, and divides the two loss
  totals by the count raised to at least 1. The lane sums are the sums over all pairs, so the result is the
  specification's.
-/
import proofs.«408772_j8778913153573_3_alg».proof.Proof.Gen.KernelIdeal.Frame
import proofs.«408772_j8778913153573_3_alg».proof.Proof.KerOut
import proofs.«408772_j8778913153573_3_alg».proof.Proof.Total
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KerTail

open Cert.KernelIdeal Cert.KernelIdeal.Gen Idealize.ShloMosaic Idealize.ShloMosaic.TcCoe Idealize.SL.Sem
open Idealize.ShloMosaic.StableHlo Idealize.ShloMosaic.ValueIdx
open Cert.KerOut

/-- The host's total of a lane array is the sum of its sixteen tile values. -/
theorem lane_total (P : Fin 16 → EReal) (i : S_.Idx) :
    Host.reduceAdd (F := Ideal) (φ := .f32) (laneArr P) (constant S_ .f32 0x00000000#32) reducesTo_S1x2048_S_d0_1 h_S_ i
      = 0 + ∑ T : Fin 16, P T := by
  simp only [Host.reduceAdd, Ideal.hostReduceAdd_def]
  rw [Ideal.hostReduceAdd_total reducesTo_S1x2048_S_d0_1 (fun b => b.elim0) (laneArr P) _ i]
  show Ideal.ofBits .f32 0x00000000#32 + ∑ k : S1x2048.Idx, laneArr P k = _
  rw [Ideal.ofBits_zero_f32, Cert.Sums.lanes_idx_sum]
  exact congrArg (0 + ·) (Cert.Sums.lanes_sum P)

variable (m : (ℓ : Loc nD τ sig) → Buf (Elt Ideal) ℓ)

/-- The three tile sums, summed over the tiles, are the sums over all pairs. -/
theorem tilesX (c : Dev nD) : ∑ T : Fin 16, tileX (argX m c) (argT m c) T = Cert.Total.sumPairs (Cert.Spec.wX (argX m c) (argT m c)) :=
  Cert.Total.tiles_total (Cert.Spec.wX (argX m c) (argT m c))
theorem tilesY (c : Dev nD) : ∑ T : Fin 16, tileY (argY m c) (argT m c) T = Cert.Total.sumPairs (Cert.Spec.wY (argY m c) (argT m c)) :=
  Cert.Total.tiles_total (Cert.Spec.wY (argY m c) (argT m c))
theorem tilesC (c : Dev nD) : ∑ T : Fin 16, tileC (argT m c) T = Cert.Total.sumPairs (Cert.Spec.mk (argT m c)) :=
  Cert.Total.tiles_total (Cert.Spec.mk (argT m c))

set_option maxHeartbeats 4000000 in
/-- What the host operations after the kernel leave in the result: the specification's result. -/
theorem tail_eq (c : Dev nD) :
    Pipeline.afterTail₀ cfgs (dats m) 0 (V0 m) [hostOps1] c main_v25
      = fun _ => Cert.Total.result (argX m c) (argY m c) (argT m c) := by
  unfold Pipeline.afterTail₀
  show StableHlo.after hostOps1 _ (Proc.devRef .tc main_v25) = _
  after_results
  have h5 : Pipeline.withArrays (cfgs 0).spec c (V0 m c) (fun w => (dats m 0 c).arrAt w (cfgs 0).N) (Proc.devRef .tc main_v18_0)
      = laneArr (tileX (argX m c) (argT m c)) :=
    (Pipeline.withArrays_arr spec0 launch0.win.arr_inj c (V0 m c) (fun w => (dats m 0 c).arrAt w cfg0.N) 5).trans (final5 m c)
  have h6 : Pipeline.withArrays (cfgs 0).spec c (V0 m c) (fun w => (dats m 0 c).arrAt w (cfgs 0).N) (Proc.devRef .tc main_v18_1)
      = laneArr (tileY (argY m c) (argT m c)) :=
    (Pipeline.withArrays_arr spec0 launch0.win.arr_inj c (V0 m c) (fun w => (dats m 0 c).arrAt w cfg0.N) 6).trans (final6 m c)
  have h7 : Pipeline.withArrays (cfgs 0).spec c (V0 m c) (fun w => (dats m 0 c).arrAt w (cfgs 0).N) (Proc.devRef .tc main_v18_2)
      = laneArr (tileC (argT m c)) :=
    (Pipeline.withArrays_arr spec0 launch0.win.arr_inj c (V0 m c) (fun w => (dats m 0 c).arrAt w cfg0.N) 7).trans (final7 m c)
  rw [h5, h6, h7]
  funext i
  show FloatOps.addf
      (FloatOps.hostDivf (Host.reduceAdd (F := Ideal) (φ := .f32) (laneArr (tileX (argX m c) (argT m c))) (constant S_ .f32 0x00000000#32) reducesTo_S1x2048_S_d0_1 h_S_ i)
        (FloatOps.maximumf (Host.reduceAdd (F := Ideal) (φ := .f32) (laneArr (tileC (argT m c))) (constant S_ .f32 0x00000000#32) reducesTo_S1x2048_S_d0_1 h_S_ i) (Ideal.ofBits .f32 0x3F800000#32)))
      (FloatOps.hostDivf (Host.reduceAdd (F := Ideal) (φ := .f32) (laneArr (tileY (argY m c) (argT m c))) (constant S_ .f32 0x00000000#32) reducesTo_S1x2048_S_d0_1 h_S_ i)
        (FloatOps.maximumf (Host.reduceAdd (F := Ideal) (φ := .f32) (laneArr (tileC (argT m c))) (constant S_ .f32 0x00000000#32) reducesTo_S1x2048_S_d0_1 h_S_ i) (Ideal.ofBits .f32 0x3F800000#32)))
    = _
  rw [lane_total, lane_total, lane_total, tilesX, tilesY, tilesC]
  rfl

/-- The kernel program at the ideal instance: every weakly fair execution terminates with the result at the
    specification's value and the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v25) = (fun _ => Cert.Total.result (argX m c) (argY m c) (argT m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v25 (Pipeline.mem_restRefs_of main_v25 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KerTail

end
-- ==== Proof.lean ====
/-
  The certificate's proof.

  Both programs compute, for each of the 256 × 32 pairs, the mean binary cross entropy of a row of 1920 probabilities
  against the one-hot vector at the pair's clamped x target, and of a row of 1080 probabilities against the one-hot
  vector at its clamped y target, in the closed form
      ( -lg p[t] - ( Σ_k lg1 p[k] - lg1 p[t] ) ) / L,   lg x = max (log x) (-100),  lg1 x = max (log (1 - x)) (-100);
  each sums the losses of the pairs whose clamped targets are not both 0 and divides by the number of such pairs,
  raised to at least 1. The reference reads p[t] by a gather along the row; the kernel reads it as the sum of the row
  against the one-hot mask "column = t" — the same entry, the clamped target being a column number. The reference sums
  over the pairs at once; the kernel sums 512 pairs per grid point into lane 0 of a 128-lane block, and the host sums
  the 2048 lanes — the same sum regrouped, sums over the extended reals being commutative and associative. Negation
  is written 0 - x on one side and -x on the other. Nothing else differs, and no step needs the inputs finite.

  The frames of the two kernel programs are the generated ones; the reference's frame is its run with the result
  dropped; the idealization rewrote nothing, so preservation is trivial.
-/
import proofs.«408772_j8778913153573_3_alg».proof.Defs
import proofs.«408772_j8778913153573_3_alg».proof.Proof.Gen.Kernel
import proofs.«408772_j8778913153573_3_alg».proof.Proof.Gen.Kernel.Frame
import proofs.«408772_j8778913153573_3_alg».proof.Proof.Gen.KernelIdeal
import proofs.«408772_j8778913153573_3_alg».proof.Proof.Gen.KernelIdeal.Frame
import proofs.«408772_j8778913153573_3_alg».proof.Proof.Gen.ReferenceIdeal
import proofs.«408772_j8778913153573_3_alg».proof.Proof.Gen.Pre_finite_inputs
import proofs.«408772_j8778913153573_3_alg».proof.Proof.RefRunP
import proofs.«408772_j8778913153573_3_alg».proof.Proof.RefReadP
import proofs.«408772_j8778913153573_3_alg».proof.Proof.RefTotal
import proofs.«408772_j8778913153573_3_alg».proof.Proof.KerTail
import Idealize.ShloMosaic.Adequacy
import Idealize.ShloMosaic.Init

noncomputable section

namespace Cert.Proof

open Idealize.ShloMosaic Idealize.ShloMosaic.TcCoe Idealize.SL.Sem

/-- The kernel program terminates without fault and keeps its arguments: the generated frame. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference terminates without fault and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the specification's result. -/
theorem algebraic : Cert.algebraic_KernelIdeal_ReferenceIdeal := by
  intro m ρ m' ρ' _ hagree
  refine ⟨fun c => fun _ => Cert.Total.result (Cert.KerOut.argX m c) (Cert.KerOut.argY m c) (Cert.KerOut.argT m c),
    Cert.KerTail.kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v57_eq, Cert.RefTotal.ref_result, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
